-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x32000x96 : Shape := ⟨3, ![64, 32000, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S64x32000x96 : S_.BroadcastsInDim S64x32000x96 (![] : Fin 0 → Fin S64x32000x96.rank)
  reducesTo_S64x32000x96_S_d0_1_2 : S64x32000x96.ReducesTo [0, 1, 2] S_
  h_S_ : 0 < S_.numel
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg0 : IVec S4096x64 32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_c_6 : IVec S_ 32 := constantI S_ 32 0#32
  let main_v19 : IVec S4096x64 32 := broadcastInDim S4096x64 ![] bcast_S_S4096x64 main_c_6
  let main_v20 : IVec S4096x64 1 := cmpi .sge main_arg0 main_v19
  let main_c_7 : IVec S_ 1 := constantI S_ 1 1#1
  let main_v21 : IVec S_ 1 := (fun x v => Host.reduce IntOp.andi x v reducesTo_S4096x64_S_d0_1 h_S_) main_v20 main_c_7
  let main_v22 : IVec S_ 1 := andi main_v18 main_v21
  main_v22

def fn {F : FTy → Type} [FloatOps F] (main_arg0 : IVec S4096x64 32) (main_arg1 : FVec F S64x32000x96 .f32) (main_arg2 : FVec F S96 .f32) (main_arg3 : FVec F S96x2 .f32) (main_arg4 : FVec F S2 .f32) : IVec S_ 1 :=
  let main_v0 : FVec F S64x32000x96 .f32 := Host.absf main_arg1
  let main_cst : FVec F S_ .f32 := constant S_ .f32 0x7F800000#32
  let main_v1 : FVec F S64x32000x96 .f32 := broadcastInDim S64x32000x96 ![] bcast_S_S64x32000x96 main_cst
  let main_v2 : IVec S64x32000x96 1 := cmpf .olt main_v0 main_v1
  let main_c : IVec S_ 1 := constantI S_ 1 1#1
  let main_v3 : IVec S_ 1 := (fun x v => Host.reduce IntOp.andi x v reducesTo_S64x32000x96_S_d0_1_2 h_S_) main_v2 main_c
  let main_v4 : FVec F S96 .f32 := Host.absf main_arg2
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  let main_v9 : FVec F S96x2 .f32 := Host.absf main_arg3
  let main_cst_2 : FVec F S_ .f32 := constant S_ .f32 0x7F800000#32
  let main_v10 : FVec F S96x2 .f32 := broadcastInDim S96x2 ![] bcast_S_S96x2 main_cst_2
  let main_v11 : IVec S96x2 1 := cmpf .olt main_v9 main_v10
  let main_c_3 : IVec S_ 1 := constantI S_ 1 1#1
  let main_v12 : IVec S_ 1 := (fun x v => Host.reduce IntOp.andi x v reducesTo_S96x2_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg0 main_v13 main_v16
-- ==== Kernel.lean ====
abbrev S4096x64 : Shape := ⟨2, ![4096, 64]⟩
abbrev S64x32000x96 : Shape := ⟨3, ![64, 32000, 96]⟩
abbrev S96 : Shape := ⟨1, ![96]⟩
abbrev S96x2 : Shape := ⟨2, ![96, 2]⟩
abbrev S2 : Shape := ⟨1, ![2]⟩
abbrev S_ : Shape := ⟨0, ![]⟩
abbrev S64x4096 : Shape := ⟨2, ![64, 4096]⟩
abbrev S1x96 : Shape := ⟨2, ![1, 96]⟩
abbrev S1x2 : Shape := ⟨2, ![1, 2]⟩
abbrev S4096x2 : Shape := ⟨2, ![4096, 2]⟩
abbrev S8x1280x96 : Shape := ⟨3, ![8, 1280, 96]⟩
abbrev S8x2048 : Shape := ⟨2, ![8, 2048]⟩
abbrev S2048x2 : Shape := ⟨2, ![2048, 2]⟩
abbrev S2048x96 : Shape := ⟨2, ![2048, 96]⟩
abbrev S1x1280 : Shape := ⟨2, ![1, 1280]⟩
abbrev S2048x8 : Shape := ⟨2, ![2048, 8]⟩
abbrev S2048x1 : Shape := ⟨2, ![2048, 1]⟩
abbrev S2048x1280 : Shape := ⟨2, ![2048, 1280]⟩
abbrev S1x1280x96 : Shape := ⟨3, ![1, 1280, 96]⟩
abbrev S1280x96 : Shape := ⟨2, ![1280, 96]⟩

abbrev nBuf : Space → Nat
  | .hbm => 18
  | .vmem => 10
  | .smem => 0
  | _ => 0

abbrev bufTy : (tb : Table) → Fin (tcTables nBuf tb) → BufTy
  | .hbm, ⟨0, _⟩ => ⟨S4096x64, .i32⟩
  | .hbm, ⟨1, _⟩ => ⟨S64x32000x96, .f32⟩
  | .hbm, ⟨2, _⟩ => ⟨S96, .f32⟩
  | .hbm, ⟨3, _⟩ => ⟨S96x2, .f32⟩
  | .hbm, ⟨4, _⟩ => ⟨S2, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x64, .i32⟩
  | .hbm, ⟨9, _⟩ => ⟨S4096x64, .i32⟩
  | .hbm, ⟨10, _⟩ => ⟨S_, .i32⟩
  | .hbm, ⟨11, _⟩ => ⟨S4096x64, .i32⟩
  | .hbm, ⟨12, _⟩ => ⟨S4096x64, .i32⟩
  | .hbm, ⟨13, _⟩ => ⟨S64x4096, .i32⟩
  | .hbm, ⟨14, _⟩ => ⟨S64x32000x96, .bf16⟩
  | .hbm, ⟨15, _⟩ => ⟨S1x96, .f32⟩
  | .hbm, ⟨16, _⟩ => ⟨S1x2, .f32⟩
  | .hbm, ⟨17, _⟩ => ⟨S4096x2, .f32⟩
  | .local _ .vmem, ⟨0, _⟩ => ⟨S8x1280x96, .bf16⟩
  | .local _ .vmem, ⟨1, _⟩ => ⟨S8x1280x96, .bf16⟩
  | .local _ .vmem, ⟨2, _⟩ => ⟨S8x2048, .i32⟩
  | .local _ .vmem, ⟨3, _⟩ => ⟨S8x2048, .i32⟩
  | .local _ .vmem, ⟨4, _⟩ => ⟨S1x96, .f32⟩
  | .local _ .vmem, ⟨5, _⟩ => ⟨S96x2, .f32⟩
  | .local _ .vmem, ⟨6, _⟩ => ⟨S1x2, .f32⟩
  | .local _ .vmem, ⟨7, _⟩ => ⟨S2048x2, .f32⟩
  | .local _ .vmem, ⟨8, _⟩ => ⟨S2048x2, .f32⟩
  | .local _ .vmem, ⟨9, _⟩ => ⟨S2048x96, .f32⟩
  | _, _ => ⟨S4096x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 8, 25], ![false, false, false]⟩

def k0_cond2 (i : grid0.Coords) : BitVec 1 :=
  let arg1 : BitVec 32 := BitVec.ofNat 32 (i 1).val
  let c7_i32 : BitVec 32 := 7#32
  let v146 : BitVec 1 := Scalar.cmpi .eq arg1 c7_i32
  let arg2 : BitVec 32 := BitVec.ofNat 32 (i 2).val
  let c24_i32 : BitVec 32 := 24#32
  let v147 : BitVec 1 := Scalar.cmpi .eq arg2 c24_i32
  let v148 : BitVec 1 := Scalar.andi v146 v147
  let v149 : BitVec 32 := Scalar.extui v148
  let c0_i32_59 : BitVec 32 := 0#32
  let v150 : BitVec 1 := Scalar.cmpi .ne v149 c0_i32_59
  v150

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x1280x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S96x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S4096x64 : S_.BroadcastsInDim S4096x64 (![] : Fin 0 → Fin S4096x64.rank)
  transposes_S4096x64_S64x4096_1_0 : S4096x64.Transposes [1, 0] S64x4096
  bitsLt_bf16_f32 : FTy.bits .bf16 < FTy.bits .f32
  shapeCasts_S96_S1x96 : S96.ShapeCasts S1x96
  shapeCasts_S2_S1x2 : S2.ShapeCasts S1x2
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  iota_S1x1280_d1_w32 : S1x1280.Iotas .tc 32 [1]
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  transposes_S8x2048_p1_0_S2048x8 : S8x2048.Transposes [1, 0] S2048x8
  slices_S2048x8_o0_0_S2048x1 : S2048x8.Slices ![0, 0] S2048x1
  broadcasts_S2048x1_S2048x1280 : S2048x1.Broadcasts S2048x1280
  broadcasts_S1x1280_S2048x1280 : S1x1280.Broadcasts S2048x1280
  natLt_1_32 : 1 < 32
  inb_S8x1280x96_S1x1280x96_0_0_0 : ∀ a, (![0, 0, 0] : Fin 3 → Nat) a + S1x1280x96.size a ≤ S8x1280x96.size a
  h_S1x1280x96 : 0 < S1x1280x96.numel
  shapeCasts_S1x1280x96_S1280x96 : S1x1280x96.ShapeCasts S1280x96
  slices_S2048x8_o0_1_S2048x1 : S2048x8.Slices ![0, 1] S2048x1
  inb_S8x1280x96_S1x1280x96_1_0_0 : ∀ a, (![1, 0, 0] : Fin 3 → Nat) a + S1x1280x96.size a ≤ S8x1280x96.size a
  slices_S2048x8_o0_2_S2048x1 : S2048x8.Slices ![0, 2] S2048x1
  inb_S8x1280x96_S1x1280x96_2_0_0 : ∀ a, (![2, 0, 0] : Fin 3 → Nat) a + S1x1280x96.size a ≤ S8x1280x96.size a
  slices_S2048x8_o0_3_S2048x1 : S2048x8.Slices ![0, 3] S2048x1
  inb_S8x1280x96_S1x1280x96_3_0_0 : ∀ a, (![3, 0, 0] : Fin 3 → Nat) a + S1x1280x96.size a ≤ S8x1280x96.size a
  slices_S2048x8_o0_4_S2048x1 : S2048x8.Slices ![0, 4] S2048x1
  inb_S8x1280x96_S1x1280x96_4_0_0 : ∀ a, (![4, 0, 0] : Fin 3 → Nat) a + S1x1280x96.size a ≤ S8x1280x96.size a
  slices_S2048x8_o0_5_S2048x1 : S2048x8.Slices ![0, 5] S2048x1
  inb_S8x1280x96_S1x1280x96_5_0_0 : ∀ a, (![5, 0, 0] : Fin 3 → Nat) a + S1x1280x96.size a ≤ S8x1280x96.size a
  slices_S2048x8_o0_6_S2048x1 : S2048x8.Slices ![0, 6] S2048x1
  inb_S8x1280x96_S1x1280x96_6_0_0 : ∀ a, (![6, 0, 0] : Fin 3 → Nat) a + S1x1280x96.size a ≤ S8x1280x96.size a
  slices_S2048x8_o0_7_S2048x1 : S2048x8.Slices ![0, 7] S2048x1
  inb_S8x1280x96_S1x1280x96_7_0_0 : ∀ a, (![7, 0, 0] : Fin 3 → Nat) a + S1x1280x96.size a ≤ S8x1280x96.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2048x96 : S1x96.Broadcasts S2048x96
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x1280_S1280x96_S2048x96_1_0_0_1_n_n_wf : DotDims.WF S2048x1280 S1280x96 S2048x96 [1] [0] [0] [1] [] []
  dot_S2048x96_S96x2_S2048x2_1_0_0_1_n_n_wf : DotDims.WF S2048x96 S96x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1280x96.size a ≤ S64x32000x96.size a
  hwx0_0 : ∀ i : grid0.Coords, EltTy.bits .bf16 = 32 ∨ (Rect.block (s := S64x32000x96) S8x1280x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x4096.size a
  hwx0_1 : ∀ i : grid0.Coords, EltTy.bits .i32 = 32 ∨ (Rect.block (s := S64x4096) S8x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x2.size a ≤ S96x2.size a
  hwx0_3 : ∀ i : grid0.Coords, EltTy.bits .f32 = 32 ∨ (Rect.block (s := S96x2) S96x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x2.size a ≤ S4096x2.size a
  hwx0_5 : ∀ i : grid0.Coords, EltTy.bits .f32 = 32 ∨ (Rect.block (s := S4096x2) S2048x2.size (cc0_transform_5 i) (hinb0_5 i)).WholeWords (EltTy.packing .f32)

variable [Facts₀]

def dot_S2048x1280_S1280x96_S2048x96_1_0_0_1_n_n : DotDims S2048x1280 S1280x96 S2048x96 where
  lhsContracting := [1]
  rhsContracting := [0]
  lhsNonContracting := [0]
  rhsNonContracting := [1]
  lhsBatch := []
  rhsBatch := []
  wf := dot_S2048x1280_S1280x96_S2048x96_1_0_0_1_n_n_wf
def dot_S2048x96_S96x2_S2048x2_1_0_0_1_n_n : DotDims S2048x96 S96x2 S2048x2 where
  lhsContracting := [1]
  rhsContracting := [0]
  lhsNonContracting := [0]
  rhsNonContracting := [1]
  lhsBatch := []
  rhsBatch := []
  wf := dot_S2048x96_S96x2_S2048x2_1_0_0_1_n_n_wf

abbrev win0_0 : Pipeline.Window sig grid0 :=
  Pipeline.Window.ofSpec (Memref.whole main_v2) S8x1280x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x64 : Shape := ⟨2, ![4096, 64]⟩
abbrev S64x32000x96 : Shape := ⟨3, ![64, 32000, 96]⟩
abbrev S96 : Shape := ⟨1, ![96]⟩
abbrev S96x2 : Shape := ⟨2, ![96, 2]⟩
abbrev S2 : Shape := ⟨1, ![2]⟩
abbrev S64 : Shape := ⟨1, ![64]⟩
abbrev S1x64 : Shape := ⟨2, ![1, 64]⟩
abbrev S_ : Shape := ⟨0, ![]⟩
abbrev S4096x64x1 : Shape := ⟨3, ![4096, 64, 1]⟩
abbrev S4096x64x2 : Shape := ⟨3, ![4096, 64, 2]⟩
abbrev S4096x64x96 : Shape := ⟨3, ![4096, 64, 96]⟩
abbrev S4096x96 : Shape := ⟨2, ![4096, 96]⟩
abbrev S1x96 : Shape := ⟨2, ![1, 96]⟩
abbrev S4096x2 : Shape := ⟨2, ![4096, 2]⟩
abbrev S1x2 : Shape := ⟨2, ![1, 2]⟩

abbrev nBuf : Space → Nat
  | .hbm => 38
  | .vmem => 0
  | .smem => 0
  | _ => 0

abbrev bufTy : (tb : Table) → Fin (tcTables nBuf tb) → BufTy
  | .hbm, ⟨0, _⟩ => ⟨S4096x64, .i32⟩
  | .hbm, ⟨1, _⟩ => ⟨S64x32000x96, .f32⟩
  | .hbm, ⟨2, _⟩ => ⟨S96, .f32⟩
  | .hbm, ⟨3, _⟩ => ⟨S96x2, .f32⟩
  | .hbm, ⟨4, _⟩ => ⟨S2, .f32⟩
  | .hbm, ⟨5, _⟩ => ⟨S64, .i32⟩
  | .hbm, ⟨6, _⟩ => ⟨S1x64, .i32⟩
  | .hbm, ⟨7, _⟩ => ⟨S_, .i32⟩
  | .hbm, ⟨8, _⟩ => ⟨S1x64, .i32⟩
  | .hbm, ⟨9, _⟩ => ⟨S1x64, .i1⟩
  | .hbm, ⟨10, _⟩ => ⟨S_, .i32⟩
  | .hbm, ⟨11, _⟩ => ⟨S1x64, .i32⟩
  | .hbm, ⟨12, _⟩ => ⟨S1x64, .i32⟩
  | .hbm, ⟨13, _⟩ => ⟨S1x64, .i32⟩
  | .hbm, ⟨14, _⟩ => ⟨S_, .i32⟩
  | .hbm, ⟨15, _⟩ => ⟨S4096x64, .i32⟩
  | .hbm, ⟨16, _⟩ => ⟨S4096x64, .i1⟩
  | .hbm, ⟨17, _⟩ => ⟨S_, .i32⟩
  | .hbm, ⟨18, _⟩ => ⟨S4096x64, .i32⟩
  | .hbm, ⟨19, _⟩ => ⟨S4096x64, .i32⟩
  | .hbm, ⟨20, _⟩ => ⟨S4096x64, .i32⟩
  | .hbm, ⟨21, _⟩ => ⟨S4096x64, .i32⟩
  | .hbm, ⟨22, _⟩ => ⟨S4096x64x1, .i32⟩
  | .hbm, ⟨23, _⟩ => ⟨S4096x64x1, .i32⟩
  | .hbm, ⟨24, _⟩ => ⟨S4096x64x2, .i32⟩
  | .hbm, ⟨25, _⟩ => ⟨S4096x64x96, .f32⟩
  | .hbm, ⟨26, _⟩ => ⟨S_, .f32⟩
  | .hbm, ⟨27, _⟩ => ⟨S4096x96, .f32⟩
  | .hbm, ⟨28, _⟩ => ⟨S1x96, .f32⟩
  | .hbm, ⟨29, _⟩ => ⟨S4096x96, .f32⟩
  | .hbm, ⟨30, _⟩ => ⟨S4096x96, .f32⟩
  | .hbm, ⟨31, _⟩ => ⟨S_, .f32⟩
  | .hbm, ⟨32, _⟩ => ⟨S4096x96, .f32⟩
  | .hbm, ⟨33, _⟩ => ⟨S4096x96, .f32⟩
  | .hbm, ⟨34, _⟩ => ⟨S4096x2, .f32⟩
  | .hbm, ⟨35, _⟩ => ⟨S1x2, .f32⟩
  | .hbm, ⟨36, _⟩ => ⟨S4096x2, .f32⟩
  | .hbm, ⟨37, _⟩ => ⟨S4096x2, .f32⟩
  | _, _ => ⟨S4096x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S_S1x64 : S_.BroadcastsInDim S1x64 (![] : Fin 0 → Fin S1x64.rank)
  bcast_S_S4096x64 : S_.BroadcastsInDim S4096x64 (![] : Fin 0 → Fin S4096x64.rank)
  bcast_S1x64_S4096x64_0_1 : S1x64.BroadcastsInDim S4096x64 (![0, 1] : Fin 2 → Fin S4096x64.rank)
  bcast_S4096x64_S4096x64x1_0_1 : S4096x64.BroadcastsInDim S4096x64x1 (![0, 1] : Fin 2 → Fin S4096x64x1.rank)
  concatenates_S4096x64x1_S4096x64x1_S4096x64x2_d2 : Shape.Concatenates [S4096x64x1, S4096x64x1] S4096x64x2 2
  reducesTo_S4096x64x96_S4096x96_d1 : S4096x64x96.ReducesTo [1] S4096x96
  h_S_ : 0 < S_.numel
  bcast_S96_S1x96_1 : S96.BroadcastsInDim S1x96 (![1] : Fin 1 → Fin S1x96.rank)
  bcast_S1x96_S4096x96_0_1 : S1x96.BroadcastsInDim S4096x96 (![0, 1] : Fin 2 → Fin S4096x96.rank)
  bcast_S_S4096x96 : S_.BroadcastsInDim S4096x96 (![] : Fin 0 → Fin S4096x96.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  gather_S64x32000x96_S4096x64x2_S4096x64x96_2_01_n_n_01_2_1196_wf : GatherDims.WF S64x32000x96 S4096x64x2 S4096x64x96 [2] [0, 1] [] [0, 1] [] 2 ![1, 1, 96]
  dot_S4096x96_S96x2_S4096x2_1_0_0_1_n_n_wf : DotDims.WF S4096x96 S96x2 S4096x2 [1] [0] [0] [1] [] []

variable [Facts₀]

def gather_S64x32000x96_S4096x64x2_S4096x64x96_2_01_n_n_01_2_1196 : GatherDims S64x32000x96 S4096x64x2 S4096x64x96 where
  offsetDims := [2]
  collapsedSliceDims := [0, 1]
  operandBatchingDims := []
  startIndicesBatchingDims := []
  startIndexMap := [0, 1]
  indexVectorDim := 2
  sliceSizes := ![1, 1, 96]
  wf := gather_S64x32000x96_S4096x64x2_S4096x64x96_2_01_n_n_01_2_1196_wf
def dot_S4096x96_S96x2_S4096x2_1_0_0_1_n_n : DotDims S4096x96 S96x2 S4096x2 where
  lhsContracting := [1]
  rhsContracting := [0]
  lhsNonContracting := [0]
  rhsNonContracting := [1]
  lhsBatch := []
  rhsBatch := []
  wf := dot_S4096x96_S96x2_S4096x2_1_0_0_1_n_n_wf

class Facts : Prop extends Facts₀ where

variable [Facts]
-- ==== Proof.Step.lean ====
/-
  One accumulate step of the kernel body, and the body's payloads as instances of it.

  At a grid point the body holds a [2048, 8] tile of token ids (one column per position of the
  current position tile) and, per position, a [1280, 96] slice of that position's table (the rows
  of the current vocabulary tile). For one position it builds the one-hot matrix
      hot[r, k] = 1 if id[r] − base = k else 0          (base = 1280 · the vocabulary tile's number)
  and adds hot · slice to the running [2048, 96] accumulator. The eight positions of the tile do
  this one after the other, each reading back what the one before stored.
-/
import proofs.«403923_j12232066859090_3_alg».proof.Proof.Gen.KernelIdeal.Skeleton
import Idealize.ShloMosaic.Lib.Pipeline.Value

noncomputable section

namespace Cert.KernelIdeal.Step

open Cert.KernelIdeal Cert.KernelIdeal.Gen Idealize.ShloMosaic Idealize.ShloMosaic.TcCoe Idealize.SL.Sem

variable {F : FTy → Type} [FloatOps F]

/-- The one-hot matrix of one position: row `r`, column `k` is one exactly when the row's id, less the
    tile's base, is the column's number. -/
def oneHot (base : BitVec 32) (lane : IVec S1x1280 32) (col : IVec S2048x1 32) : FVec F S2048x1280 .bf16 :=
  truncf .bf16 (sitofp .f32 (extui 32 (cmpi .eq
    (broadcastTo S2048x1280 (subi col (broadcast S2048x1 base)) broadcasts_S2048x1_S2048x1280)
    (broadcastTo S2048x1280 lane broadcasts_S1x1280_S2048x1280)) natLt_1_32)) bitsLt_bf16_f32

/-- One position's step: the accumulator plus the one-hot matrix times the position's table slice. -/
def accStep (base : BitVec 32) (lane : IVec S1x1280 32) (col : IVec S2048x1 32) (w : Vec F S1x1280x96 .bf16)
    (acc : Vec F S2048x96 .f32) : FVec F S2048x96 .f32 :=
  addf acc (matmul dot_S2048x1280_S1280x96_S2048x96_1_0_0_1_n_n none (oneHot base lane col)
    (shapeCast S1280x96 w shapeCasts_S1x1280x96_S1280x96) (constant S2048x96 .f32 0x00000000#32))

/-- The tile's base: 1280 times the grid's vocabulary coordinate, as the body computes it. -/
abbrev baseOf (i : grid0.Coords) : BitVec 32 := Scalar.muli (BitVec.ofNat 32 (i 2).val) 1280#32
/-- The lane numbers 0 … 1279. -/
abbrev lanes : IVec S1x1280 32 := iota .tc S1x1280 32 [1] iota_S1x1280_d1_w32

theorem pay3_eq (i : grid0.Coords) (v7 : Vec F S8x2048 .i32) (w acc) :
    k0_pay3 i v7 w acc = accStep (baseOf i) lanes
      (extractStridedSlice S2048x1 ![0, 0] (k0_pay2 v7) slices_S2048x8_o0_0_S2048x1) w acc :=
  shapeCast_self _ _

theorem pay6_eq (i : grid0.Coords) (v7 : Vec F S8x2048 .i32) (w : Vec F S1x1280x96 .bf16) (acc) :
    k0_pay6 (k0_pay4 i v7) (k0_pay5 w) acc = accStep (baseOf i) lanes
      (extractStridedSlice S2048x1 ![0, 1] (k0_pay2 v7) slices_S2048x8_o0_1_S2048x1) w acc :=
  shapeCast_self _ _

theorem pay7_eq (base lane) (v9 : IVec S2048x8 32) (w : Vec F S1x1280x96 .bf16) (acc) :
    k0_pay7 base lane v9 w acc = accStep base lane
      (extractStridedSlice S2048x1 ![0, 2] v9 slices_S2048x8_o0_2_S2048x1) w acc :=
  shapeCast_self _ _

theorem pay9_eq (base lane) (v9 : IVec S2048x8 32) (w : Vec F S1x1280x96 .bf16) (acc) :
    k0_pay9 (k0_pay8 base lane v9 w acc) = accStep base lane
      (extractStridedSlice S2048x1 ![0, 3] v9 slices_S2048x8_o0_3_S2048x1) w acc :=
  shapeCast_self _ _

theorem pay10_eq (base lane) (v9 : IVec S2048x8 32) (w : Vec F S1x1280x96 .bf16) (acc) :
    k0_pay10 base lane v9 w acc = accStep base lane
      (extractStridedSlice S2048x1 ![0, 4] v9 slices_S2048x8_o0_4_S2048x1) w acc :=
  shapeCast_self _ _

theorem pay11_eq (base lane) (v9 : IVec S2048x8 32) (w : Vec F S1x1280x96 .bf16) (acc) :
    k0_pay11 base lane v9 w acc = accStep base lane
      (extractStridedSlice S2048x1 ![0, 5] v9 slices_S2048x8_o0_5_S2048x1) w acc :=
  shapeCast_self _ _

theorem pay13_eq (base lane) (v9 : IVec S2048x8 32) (w : Vec F S1x1280x96 .bf16) (acc) :
    k0_pay13 lane (k0_pay12 base v9) w acc = accStep base lane
      (extractStridedSlice S2048x1 ![0, 6] v9 slices_S2048x8_o0_6_S2048x1) w acc :=
  shapeCast_self _ _

theorem pay14_eq (base lane) (v9 : IVec S2048x8 32) (w : Vec F S1x1280x96 .bf16) (acc) :
    k0_pay14 base lane v9 w acc = accStep base lane
      (extractStridedSlice S2048x1 ![0, 7] v9 slices_S2048x8_o0_7_S2048x1) w acc :=
  shapeCast_self _ _

end Cert.KernelIdeal.Step

end
-- ==== Proof.LibCoveredLoad.lean ====
/-
  A load of a whole buffer after a run of stores, the last of which covered the whole buffer.

  A body that updates a buffer in place several times in a row (load it all, compute, store it all, and
  again) leaves a list of stores, last first, and each later load reads "what those stores left". When the
  most recent store wrote every index of the buffer, the load reads that store's payload, whatever the
  earlier stores were: they are all overwritten. This is the many-store form of the library's one-store fact
  (a load of what ONE whole-buffer store left reads its payload).
-/
import Idealize.ShloMosaic.Lib.Pipeline.Value

noncomputable section

namespace Cert.LibCoveredLoad

open Idealize.ShloMosaic

/-- A load through the whole-shape rectangle at zero offsets, after a list of stores (last first) whose FIRST entry
    is a store through that same rectangle, reads that store's payload `w`; the older stores `L` do not matter.
    The zero offsets may be spelt in any way (`h`), as for the library's `View.readCov_unit_zero`. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩),
    View.canon_cons_unit_zero rfl, View.ld_unit_zero rfl]

end Cert.LibCoveredLoad

end
-- ==== Proof.Pieces.lean ====
/-
  What each case of the body leaves behind, as the eight accumulate steps of Step.lean applied in order.

  The body stores the whole [2048, 96] accumulator eight times at a grid point (nine at a point that first
  resets it), each store's payload computed from a load of what the store before left. Reading the stores
  back, last first, the accumulator ends at the last payload, whose accumulator argument is the one
  before's, and so on down to what the point found there (or to the zero block at a resetting point).
  At the last point of a batch tile the body also stores the output block: the second layer applied to
  that final accumulator.
-/
import proofs.«403923_j12232066859090_3_alg».proof.Proof.Gen.KernelIdeal.Frame
import proofs.«403923_j12232066859090_3_alg».proof.Proof.Step
import proofs.«403923_j12232066859090_3_alg».proof.Proof.LibCoveredLoad
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Step Cert.LibCoveredLoad
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- The eight steps of one grid point, first position first, over what the accumulator held. -/
def pointAcc (i : grid0.Coords) (x0 : Vec F S8x1280x96 .bf16) (x1 : Vec F S8x2048 .i32) (acc : Vec F S2048x96 .f32) :
    Vec F S2048x96 .f32 :=
  accStep (baseOf i) lanes (extractStridedSlice S2048x1 ![0, 7] (k0_pay2 x1) slices_S2048x8_o0_7_S2048x1)
    (View.ld x0 (Rect.unit (s := S8x1280x96) ![7, 0, 0] S1x1280x96.size inb_S8x1280x96_S1x1280x96_7_0_0)) <|
  accStep (baseOf i) lanes (extractStridedSlice S2048x1 ![0, 6] (k0_pay2 x1) slices_S2048x8_o0_6_S2048x1)
    (View.ld x0 (Rect.unit (s := S8x1280x96) ![6, 0, 0] S1x1280x96.size inb_S8x1280x96_S1x1280x96_6_0_0)) <|
  accStep (baseOf i) lanes (extractStridedSlice S2048x1 ![0, 5] (k0_pay2 x1) slices_S2048x8_o0_5_S2048x1)
    (View.ld x0 (Rect.unit (s := S8x1280x96) ![5, 0, 0] S1x1280x96.size inb_S8x1280x96_S1x1280x96_5_0_0)) <|
  accStep (baseOf i) lanes (extractStridedSlice S2048x1 ![0, 4] (k0_pay2 x1) slices_S2048x8_o0_4_S2048x1)
    (View.ld x0 (Rect.unit (s := S8x1280x96) ![4, 0, 0] S1x1280x96.size inb_S8x1280x96_S1x1280x96_4_0_0)) <|
  accStep (baseOf i) lanes (extractStridedSlice S2048x1 ![0, 3] (k0_pay2 x1) slices_S2048x8_o0_3_S2048x1)
    (View.ld x0 (Rect.unit (s := S8x1280x96) ![3, 0, 0] S1x1280x96.size inb_S8x1280x96_S1x1280x96_3_0_0)) <|
  accStep (baseOf i) lanes (extractStridedSlice S2048x1 ![0, 2] (k0_pay2 x1) slices_S2048x8_o0_2_S2048x1)
    (View.ld x0 (Rect.unit (s := S8x1280x96) ![2, 0, 0] S1x1280x96.size inb_S8x1280x96_S1x1280x96_2_0_0)) <|
  accStep (baseOf i) lanes (extractStridedSlice S2048x1 ![0, 1] (k0_pay2 x1) slices_S2048x8_o0_1_S2048x1)
    (View.ld x0 (Rect.unit (s := S8x1280x96) ![1, 0, 0] S1x1280x96.size inb_S8x1280x96_S1x1280x96_1_0_0)) <|
  accStep (baseOf i) lanes (extractStridedSlice S2048x1 ![0, 0] (k0_pay2 x1) slices_S2048x8_o0_0_S2048x1)
    (View.ld x0 (Rect.unit (s := S8x1280x96) ![0, 0, 0] S1x1280x96.size inb_S8x1280x96_S1x1280x96_0_0_0)) acc

/-- The zero block a resetting point stores first. -/
abbrev zeroAcc : Vec F S2048x96 .f32 := k0_pay1

/-- Case B (a point that neither resets nor finishes): the accumulator it found, stepped eight times. -/
theorem sout_B (c : Dev nD) (i : grid0.Coords) (arg3 : Memref sig .tc .vmem S8x1280x96 .bf16) (harg3 : arg3.IsWhole) (arg4 : Memref sig .tc .vmem S8x2048 .i32) (harg4 : arg4.IsWhole) (arg5 : Memref sig .tc .vmem S1x96 .f32) (harg5 : arg5.IsWhole) (arg6 : Memref sig .tc .vmem S96x2 .f32) (harg6 : arg6.IsWhole) (arg7 : Memref sig .tc .vmem S1x2 .f32) (harg7 : arg7.IsWhole) (arg8 : Memref sig .tc .vmem S2048x2 .f32) (harg8 : arg8.IsWhole) (arg9 : Memref sig .tc .vmem S2048x96 .f32) (harg9 : arg9.IsWhole) (hc0 : ¬cond0_0 i) (hc1 : ¬cond0_1 i)
    (x0 : Vec F S8x1280x96 .bf16) (x1 : Vec F S8x2048 .i32) (x2 : Vec F S1x96 .f32) (x3 : Vec F S96x2 .f32) (x4 : Vec F S1x2 .f32) (xs0 : Vec F S2048x96 .f32) :
    sout0_B_0 c i arg3 harg3 arg4 harg4 arg5 harg5 arg6 harg6 arg7 harg7 arg8 harg8 arg9 harg9 hc0 hc1 x0 x1 x2 x3 x4 xs0 = pointAcc i x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_cons_unit_zero (S := S2048x96) hz2]
  simp only [readCov_cons_whole (S := S2048x96) _ hz2, View.readAt_eq_ld, harg3.read_unread, harg4.read_unread,
    harg5.read_unread, harg6.read_unread, harg7.read_unread, harg9.read_unread,
    View.ld_unit_zero (S := S2048x96) hz2, View.ld_unit_zero (S := S8x2048) hz2, View.ld_unit_zero (S := S1x96) hz2,
    View.ld_unit_zero (S := S96x2) hz2, View.ld_unit_zero (S := S1x2) hz2,
    pay14_eq, pay13_eq, pay11_eq, pay10_eq, pay9_eq, pay7_eq, pay6_eq, pay3_eq]
  rfl

/-- Case C (the last point of a batch tile): the same eight steps. -/
theorem sout_C (c : Dev nD) (i : grid0.Coords) (arg3 : Memref sig .tc .vmem S8x1280x96 .bf16) (harg3 : arg3.IsWhole) (arg4 : Memref sig .tc .vmem S8x2048 .i32) (harg4 : arg4.IsWhole) (arg5 : Memref sig .tc .vmem S1x96 .f32) (harg5 : arg5.IsWhole) (arg6 : Memref sig .tc .vmem S96x2 .f32) (harg6 : arg6.IsWhole) (arg7 : Memref sig .tc .vmem S1x2 .f32) (harg7 : arg7.IsWhole) (arg8 : Memref sig .tc .vmem S2048x2 .f32) (harg8 : arg8.IsWhole) (arg9 : Memref sig .tc .vmem S2048x96 .f32) (harg9 : arg9.IsWhole) (hc0 : ¬cond0_0 i) (hc1 : cond0_1 i)
    (x0 : Vec F S8x1280x96 .bf16) (x1 : Vec F S8x2048 .i32) (x2 : Vec F S1x96 .f32) (x3 : Vec F S96x2 .f32) (x4 : Vec F S1x2 .f32) (xs0 : Vec F S2048x96 .f32) :
    sout0_C_0 c i arg3 harg3 arg4 harg4 arg5 harg5 arg6 harg6 arg7 harg7 arg8 harg8 arg9 harg9 hc0 hc1 x0 x1 x2 x3 x4 xs0 = pointAcc i x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_cons_unit_zero (S := S2048x96) hz2]
  simp only [readCov_cons_whole (S := S2048x96) _ hz2, View.readAt_eq_ld, harg3.read_unread, harg4.read_unread,
    harg5.read_unread, harg6.read_unread, harg7.read_unread, harg9.read_unread,
    View.ld_unit_zero (S := S2048x96) hz2, View.ld_unit_zero (S := S8x2048) hz2, View.ld_unit_zero (S := S1x96) hz2,
    View.ld_unit_zero (S := S96x2) hz2, View.ld_unit_zero (S := S1x2) hz2,
    pay14_eq, pay13_eq, pay11_eq, pay10_eq, pay9_eq, pay7_eq, pay6_eq, pay3_eq]
  rfl

/-- Case A (the first point of a batch tile): the zero block, stepped eight times. -/
theorem sout_A (c : Dev nD) (i : grid0.Coords) (arg3 : Memref sig .tc .vmem S8x1280x96 .bf16) (harg3 : arg3.IsWhole) (arg4 : Memref sig .tc .vmem S8x2048 .i32) (harg4 : arg4.IsWhole) (arg5 : Memref sig .tc .vmem S1x96 .f32) (harg5 : arg5.IsWhole) (arg6 : Memref sig .tc .vmem S96x2 .f32) (harg6 : arg6.IsWhole) (arg7 : Memref sig .tc .vmem S1x2 .f32) (harg7 : arg7.IsWhole) (arg8 : Memref sig .tc .vmem S2048x2 .f32) (harg8 : arg8.IsWhole) (arg9 : Memref sig .tc .vmem S2048x96 .f32) (harg9 : arg9.IsWhole) (hc0 : cond0_0 i) (hc1 : ¬cond0_1 i)
    (x0 : Vec F S8x1280x96 .bf16) (x1 : Vec F S8x2048 .i32) (x2 : Vec F S1x96 .f32) (x3 : Vec F S96x2 .f32) (x4 : Vec F S1x2 .f32) :
    sout0_A_0 c i arg3 harg3 arg4 harg4 arg5 harg5 arg6 harg6 arg7 harg7 arg8 harg8 arg9 harg9 hc0 hc1 x0 x1 x2 x3 x4 = pointAcc i x0 x1 zeroAcc := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x96) hz2]
  simp only [readCov_cons_whole (S := S2048x96) _ hz2, View.readAt_eq_ld, harg3.read_unread, harg4.read_unread,
    harg5.read_unread, harg6.read_unread, harg7.read_unread, harg9.read_unread,
    View.ld_unit_zero (S := S2048x96) hz2, View.ld_unit_zero (S := S8x2048) hz2, View.ld_unit_zero (S := S1x96) hz2,
    View.ld_unit_zero (S := S96x2) hz2, View.ld_unit_zero (S := S1x2) hz2,
    pay14_eq, pay13_eq, pay11_eq, pay10_eq, pay9_eq, pay7_eq, pay6_eq, pay3_eq]
  rfl

/-- Case C's output block: the second layer (bias, rectifier, product with the second weights, bias) of the
    accumulator the point's eight steps end at. -/
theorem out_C (c : Dev nD) (i : grid0.Coords) (arg3 : Memref sig .tc .vmem S8x1280x96 .bf16) (harg3 : arg3.IsWhole) (arg4 : Memref sig .tc .vmem S8x2048 .i32) (harg4 : arg4.IsWhole) (arg5 : Memref sig .tc .vmem S1x96 .f32) (harg5 : arg5.IsWhole) (arg6 : Memref sig .tc .vmem S96x2 .f32) (harg6 : arg6.IsWhole) (arg7 : Memref sig .tc .vmem S1x2 .f32) (harg7 : arg7.IsWhole) (arg8 : Memref sig .tc .vmem S2048x2 .f32) (harg8 : arg8.IsWhole) (arg9 : Memref sig .tc .vmem S2048x96 .f32) (harg9 : arg9.IsWhole) (hc0 : ¬cond0_0 i) (hc1 : cond0_1 i)
    (x0 : Vec F S8x1280x96 .bf16) (x1 : Vec F S8x2048 .i32) (x2 : Vec F S1x96 .f32) (x3 : Vec F S96x2 .f32) (x4 : Vec F S1x2 .f32) (xs0 : Vec F S2048x96 .f32) :
    out0_C_5 c i arg3 harg3 arg4 harg4 arg5 harg5 arg6 harg6 arg7 harg7 arg8 harg8 arg9 harg9 hc0 hc1 x0 x1 x2 x3 x4 xs0 = k0_pay15 (pointAcc i x0 x1 xs0) x2 x3 x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S2048x2) hz2]
  simp only [readCov_cons_whole (S := S2048x96) _ hz2, View.readAt_eq_ld, harg3.read_unread, harg4.read_unread,
    harg5.read_unread, harg6.read_unread, harg7.read_unread, harg9.read_unread,
    View.ld_unit_zero (S := S2048x96) hz2, View.ld_unit_zero (S := S8x2048) hz2, View.ld_unit_zero (S := S1x96) hz2,
    View.ld_unit_zero (S := S96x2) hz2, View.ld_unit_zero (S := S1x2) hz2,
    pay14_eq, pay13_eq, pay11_eq, pay10_eq, pay9_eq, pay7_eq, pay6_eq, pay3_eq]
  rfl

end Cert.KernelIdeal.Pieces

end
-- ==== Proof.StepIdeal.lean ====
/-
  The accumulate step over the extended reals, at an index.

  There the one-hot matrix holds exact ones and zeros and the matrix product is a plain sum, so one
  position's step adds to entry (r, h) of the accumulator
      Σ_k [id[r] − base = k] · slice[k, h],
  and the eight steps of a grid point add the eight positions' sums, in order.
-/
import proofs.«403923_j12232066859090_3_alg».proof.Proof.Pieces
import Idealize.ShloMosaic.Lib.ValueIdx
import Idealize.ShloMosaic.Lib.StableHlo.Predicate
import Idealize.ShloMosaic.PureOps.Ideal.Laws

noncomputable section

namespace Cert.KernelIdeal.StepIdeal

open Cert.KernelIdeal Cert.KernelIdeal.Gen Cert.KernelIdeal.Step Cert.KernelIdeal.Pieces
open Idealize.ShloMosaic Idealize.ShloMosaic.TcCoe Idealize.ShloMosaic.ValueIdx Idealize.SL.Sem

/-! ## The one-hot product as a sum over the 1280 lanes -/

theorem lhs_row (i : S2048x96.Idx) (q : dot_S2048x1280_S1280x96_S2048x96_1_0_0_1_n_n.contr.Idx) :
    (dot_S2048x1280_S1280x96_S2048x96_1_0_0_1_n_n.lhsIdx i q 0).val = (i 0).val := by
  unfold DotDims.lhsIdx
  rw [dif_neg (show ¬(0 : Fin S2048x1280.rank) ∈ dot_S2048x1280_S1280x96_S2048x96_1_0_0_1_n_n.lhsBatch by decide), dif_pos (show (0 : Fin S2048x1280.rank) ∈ dot_S2048x1280_S1280x96_S2048x96_1_0_0_1_n_n.lhsNonContracting by decide)]
  rfl
theorem lhs_lane (i : S2048x96.Idx) (q : dot_S2048x1280_S1280x96_S2048x96_1_0_0_1_n_n.contr.Idx) :
    (dot_S2048x1280_S1280x96_S2048x96_1_0_0_1_n_n.lhsIdx i q 1).val = (q ⟨0, by decide⟩).val :=
  dot_S2048x1280_S1280x96_S2048x96_1_0_0_1_n_n.lhsIdx_val_of_single rfl i q
theorem rhs_lane (i : S2048x96.Idx) (q : dot_S2048x1280_S1280x96_S2048x96_1_0_0_1_n_n.contr.Idx) :
    (dot_S2048x1280_S1280x96_S2048x96_1_0_0_1_n_n.rhsIdx i q 0).val = (q ⟨0, by decide⟩).val :=
  dot_S2048x1280_S1280x96_S2048x96_1_0_0_1_n_n.rhsIdx_val_of_single rfl i q
theorem rhs_col (i : S2048x96.Idx) (q : dot_S2048x1280_S1280x96_S2048x96_1_0_0_1_n_n.contr.Idx) :
    (dot_S2048x1280_S1280x96_S2048x96_1_0_0_1_n_n.rhsIdx i q 1).val = (i 1).val := by
  unfold DotDims.rhsIdx
  rw [dif_neg (show ¬(1 : Fin S1280x96.rank) ∈ dot_S2048x1280_S1280x96_S2048x96_1_0_0_1_n_n.rhsBatch by decide), dif_pos (show (1 : Fin S1280x96.rank) ∈ dot_S2048x1280_S1280x96_S2048x96_1_0_0_1_n_n.rhsNonContracting by decide)]
  rfl

/-- The [2048, 1280] · [1280, 96] product into a zero accumulator, at (r, h): the sum over the lanes. -/
theorem product_apply (a : FVec Ideal S2048x1280 .bf16) (b : FVec Ideal S1280x96 .bf16) (r : Fin 2048) (h : Fin 96) :
    matmul dot_S2048x1280_S1280x96_S2048x96_1_0_0_1_n_n none a b (constant S2048x96 .f32 0x00000000#32) (ix2 r h)
      = ∑ k : Fin 1280, a (ix2 r k) * b (ix2 k h) := by
  simp only [matmul]
  rw [Ideal.matmul_constant_zero_apply, ← Equiv.sum_comp (contrEquiv1 dot_S2048x1280_S1280x96_S2048x96_1_0_0_1_n_n 1280 rfl rfl).symm]
  refine Finset.sum_congr rfl fun k _ => ?_
  have hk := contrEquiv1_symm_val dot_S2048x1280_S1280x96_S2048x96_1_0_0_1_n_n 1280 rfl rfl k
  have el : dot_S2048x1280_S1280x96_S2048x96_1_0_0_1_n_n.lhsIdx (ix2 r h) ((contrEquiv1 dot_S2048x1280_S1280x96_S2048x96_1_0_0_1_n_n 1280 rfl rfl).symm k) = ix2 r k := funext fun a => Fin.ext (by
    match a with
    | ⟨0, _⟩ => exact lhs_row _ _
    | ⟨1, _⟩ => exact (lhs_lane _ _).trans hk)
  have er : dot_S2048x1280_S1280x96_S2048x96_1_0_0_1_n_n.rhsIdx (ix2 r h) ((contrEquiv1 dot_S2048x1280_S1280x96_S2048x96_1_0_0_1_n_n 1280 rfl rfl).symm k) = ix2 k h := funext fun a => Fin.ext (by
    match a with
    | ⟨0, _⟩ => exact (rhs_lane _ _).trans hk
    | ⟨1, _⟩ => exact rhs_col _ _)
  rw [el, er]

/-! ## The one-hot entry -/

/-- An equality test widened to a word and read as a signed integer is one or zero. -/
theorem indicator_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · rw [if_pos h, StableHlo.Predicate.cmpi_eq_iff.mpr h]
    rw [show ((1#1 : BitVec 1).setWidth 32).toInt = 1 from by decide]; simp
  · rw [if_neg h, eq_zero_of_ne_one (fun e => h (StableHlo.Predicate.cmpi_eq_iff.mp e))]
    rw [show ((0#1 : BitVec 1).setWidth 32).toInt = 0 from by decide]; simp

/-- Entry (r, k) of the one-hot matrix: one exactly when the row's id less the base is the lane's number. -/
theorem oneHot_apply (base : BitVec 32) (col : IVec S2048x1 32) (r : Fin 2048) (k : Fin 1280) :
    oneHot (F := Ideal) base lanes col (ix2 r k)
      = if col (ix2 r 0) - base = BitVec.ofNat 32 k.val then (1 : EReal) else 0 := by
  have e1 : broadcastTo S2048x1280 (subi col (broadcast S2048x1 base)) broadcasts_S2048x1_S2048x1280 (ix2 r k)
      = col (ix2 r 0) - base :=
    broadcastTo_apply _ _ (ix2 r k) (ix2 r 0) (fun a => by
      match a with
      | ⟨0, _⟩ => rfl
      | ⟨1, _⟩ => rfl)
  have e2 : broadcastTo S2048x1280 lanes broadcasts_S1x1280_S2048x1280 (ix2 r k) = BitVec.ofNat 32 k.val :=
    (broadcastTo_apply _ _ (ix2 r k) (ix2 0 k) (fun a => by
      match a with
      | ⟨0, _⟩ => rfl
      | ⟨1, _⟩ => rfl)).trans (iota_single_apply .tc S1x1280 32 1 iota_S1x1280_d1_w32 (ix2 0 k))
  show FloatOps.sitofp (F := Ideal) .f32 ((IntOp.cmpi .eq
      (broadcastTo S2048x1280 (subi col (broadcast S2048x1 base)) broadcasts_S2048x1_S2048x1280 (ix2 r k))
      (broadcastTo S2048x1280 lanes broadcasts_S1x1280_S2048x1280 (ix2 r k))).setWidth 32) = _
  rw [e1, e2, indicator_word]

/-! ## One step, and the eight steps of a grid point -/

/-- One position's step at (r, h). -/
theorem accStep_apply (base : BitVec 32) (col : IVec S2048x1 32) (w : Vec Ideal S1x1280x96 .bf16)
    (acc : Vec Ideal S2048x96 .f32) (r : Fin 2048) (h : Fin 96) :
    accStep (F := Ideal) base lanes col w acc (ix2 r h)
      = acc (ix2 r h) + ∑ k : Fin 1280,
          (if col (ix2 r 0) - base = BitVec.ofNat 32 k.val then (1 : EReal) else 0) * w (ix3 0 k h) := by
  unfold accStep
  rw [addf_apply, product_apply]
  refine congrArg (fun z : EReal => acc (ix2 r h) + z) (Finset.sum_congr rfl fun k _ => ?_)
  rw [oneHot_apply]
  refine congrArg (fun z : EReal => (if col (ix2 r 0) - base = BitVec.ofNat 32 k.val then (1 : EReal) else 0) * z) ?_
  exact shapeCast_apply _ _ (ix2 k h) (ix3 0 k h) (by
    rw [Shape.rowMajor_val_three, Shape.rowMajor_val_two]
    show (0 * 1280 + (k : ℕ)) * 96 + (h : ℕ) = (k : ℕ) * 96 + (h : ℕ)
    omega)

/-! ## The eight steps of a grid point -/

/-- Column `o` of the transposed id tile, at row `r`: the id tile's entry (o, r). -/
theorem col_apply (x1 : Vec Ideal S8x2048 .i32) (o : ℕ) (ho : o < 8) (hs : S2048x8.Slices ![0, o] S2048x1) (r : Fin 2048) :
    extractStridedSlice S2048x1 ![0, o] (k0_pay2 x1) hs (ix2 r 0) = x1 (ix2 ⟨o, ho⟩ r) := by
  refine (extractStridedSlice_apply _ _ hs (ix2 r 0) (ix2 r ⟨o, ho⟩) (fun a => by
    match a with
    | ⟨0, _⟩ => show (r : ℕ) = 0 + (r : ℕ); omega
    | ⟨1, _⟩ => show o = o + 0; rfl)).trans ?_
  unfold k0_pay2
  refine (transpose_apply _ _ _ (ix2 r ⟨o, ho⟩) (ix2 ⟨o, ho⟩ r) (fun b => by
    match b with
    | ⟨0, _⟩ => rfl
    | ⟨1, _⟩ => rfl)).trans ?_
  rw [shapeCast_self]

/-- Position `o`'s slab of the table block, at lane `k`, hidden unit `h`: the block's entry (o, k, h). -/
theorem slab_apply (x0 : Vec Ideal S8x1280x96 .bf16) (o : ℕ) (ho : o < 8)
    (inb : ∀ a, (![o, 0, 0] : Fin 3 → ℕ) a + S1x1280x96.size a ≤ S8x1280x96.size a) (k : Fin 1280) (h : Fin 96) :
    View.ld x0 (Rect.unit (s := S8x1280x96) ![o, 0, 0] S1x1280x96.size inb) (ix3 0 k h) = x0 (ix3 ⟨o, ho⟩ k h) := by
  show x0 _ = x0 _
  congr 1; funext a; apply Fin.ext
  match a with
  | ⟨0, _⟩ => show o + 1 * 0 = o; omega
  | ⟨1, _⟩ => show 0 + 1 * (k : ℕ) = (k : ℕ); omega
  | ⟨2, _⟩ => show 0 + 1 * (h : ℕ) = (h : ℕ); omega

/-- What one position adds to entry (r, h): the one-hot row of the position's id against the position's slab. -/
def posAdd (base : BitVec 32) (x0 : Vec Ideal S8x1280x96 .bf16) (x1 : Vec Ideal S8x2048 .i32) (l : Fin 8)
    (r : Fin 2048) (h : Fin 96) : EReal :=
  ∑ k : Fin 1280, (if x1 (ix2 l r) - base = BitVec.ofNat 32 k.val then (1 : EReal) else 0) * x0 (ix3 l k h)

/-- The eight steps of a grid point at (r, h): what the accumulator held plus the eight positions' sums. -/
theorem pointAcc_apply (i : grid0.Coords) (x0 : Vec Ideal S8x1280x96 .bf16) (x1 : Vec Ideal S8x2048 .i32)
    (acc : Vec Ideal S2048x96 .f32) (r : Fin 2048) (h : Fin 96) :
    pointAcc (F := Ideal) i x0 x1 acc (ix2 r h) = acc (ix2 r h) + ∑ l : Fin 8, posAdd (baseOf i) x0 x1 l r h := by
  unfold pointAcc
  simp only [accStep_apply,
    col_apply x1 0 (by decide), col_apply x1 1 (by decide), col_apply x1 2 (by decide), col_apply x1 3 (by decide),
    col_apply x1 4 (by decide), col_apply x1 5 (by decide), col_apply x1 6 (by decide), col_apply x1 7 (by decide),
    slab_apply x0 0 (by decide), slab_apply x0 1 (by decide), slab_apply x0 2 (by decide), slab_apply x0 3 (by decide),
    slab_apply x0 4 (by decide), slab_apply x0 5 (by decide), slab_apply x0 6 (by decide), slab_apply x0 7 (by decide)]
  rw [Fin.sum_univ_eight]
  simp only [add_assoc]
  rfl

end Cert.KernelIdeal.StepIdeal

end
-- ==== Proof.Spec.lean ====
/-
  The network both programs compute, as one function of the argument arrays.

  A token id is a signed 32-bit word. Clamped into the vocabulary it names a row of the embedding
  table: a negative id names row 0, an id past the end names the last row, 31999. For batch row `b`
  and hidden unit `h` the hidden pre-activation is the sum, over the 64 positions `p`, of entry `h` of
  the row of table `p` that the token at `(b, p)` names. The output at `(b, j)` is the second linear
  layer applied to the rectified hidden vector:
      out[b, j] = (Σ_h max (hidden[b, h] + b1[h]) 0 · W2[h, j]) + b2[j].
  Floats are extended reals; nothing here needs them finite, because the only laws used are that
  sums commute and re-associate and that `1 · x = x`, `0 · x = 0`.
-/
import Idealize.ShloMosaic.PureOps.Ideal
import Idealize.ShloMosaic.Lib.ValueIdx

noncomputable section

namespace Cert.OneHotMlp

open Idealize.ShloMosaic Idealize.ShloMosaic.ValueIdx

/-- The row of a 32000-row table a signed 32-bit token id names once clamped into range. -/
def tok (x : BitVec 32) : Fin 32000 := ⟨min x.toInt.toNat 31999, by omega⟩

theorem tok_val (x : BitVec 32) : (tok x).val = min x.toInt.toNat 31999 := rfl

/-- The hidden pre-activation at batch row `b`, hidden unit `h`: one table row per position, summed. -/
def hidden (ids : (⟨2, ![4096, 64]⟩ : Shape).Idx → BitVec 32) (W1 : (⟨3, ![64, 32000, 96]⟩ : Shape).Idx → EReal)
    (b : Fin 4096) (h : Fin 96) : EReal :=
  ∑ p : Fin 64, W1 (ix3 p (tok (ids (ix2 b p))) h)

/-- The whole network at output index `(b, j)`. -/
def net (ids : (⟨2, ![4096, 64]⟩ : Shape).Idx → BitVec 32) (W1 : (⟨3, ![64, 32000, 96]⟩ : Shape).Idx → EReal)
    (b1 : (⟨1, ![96]⟩ : Shape).Idx → EReal) (W2 : (⟨2, ![96, 2]⟩ : Shape).Idx → EReal)
    (b2 : (⟨1, ![2]⟩ : Shape).Idx → EReal) : (⟨2, ![4096, 2]⟩ : Shape).Idx → EReal :=
  fun j => (∑ h : Fin 96, max (hidden ids W1 (j 0) h + b1 (ix1 h)) 0 * W2 (ix2 h (j 1))) + b2 (ix1 (j 1))

end Cert.OneHotMlp

end
-- ==== Proof.HostPrefix.lean ====
/-
  The arrays the kernel is launched on, as functions of the five arguments.

  Before the kernel runs, four arrays are prepared from the arguments. The token ids are clamped entrywise into
  [0, 31999] (raised to at least 0, then lowered to at most 31999, as signed 32-bit integers) and the [4096, 64]
  array is transposed to [64, 4096]. The embedding tables change float format, which over the extended reals changes
  nothing. The two bias vectors, of 96 and of 2 entries, become arrays of one row.

  For the ids the point is that clamping commutes with naming a row: a word x and its clamp y = min 31999 (max 0 x)
  satisfy min (toNat y) 31999 = min (toNat x) 31999, where toNat sends a negative integer to 0; and 0 ≤ y ≤ 31999.
  This rests on the signed value of a signed maximum (minimum) of two words being the maximum (minimum) of their
  signed values. For a one-row array the row-major position of (0, h) is h, the position of h in the vector.
-/
import proofs.«403923_j12232066859090_3_alg».proof.Proof.Gen.KernelIdeal.Frame
import proofs.«403923_j12232066859090_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostPrefix

open Cert.KernelIdeal Cert.KernelIdeal.Gen
open Idealize.ShloMosaic Idealize.ShloMosaic.TcCoe Idealize.ShloMosaic.ValueIdx Idealize.ShloMosaic.StableHlo Idealize.SL.Sem

/-! ## Clamping a signed word into the table's row range -/

/-- The signed value of the zero word. -/
theorem toInt_word_zero : (0#32 : BitVec 32).toInt = 0 := by decide
/-- The signed value of the word of the last row, 31999. -/
theorem toInt_word_last : (31999#32 : BitVec 32).toInt = 31999 := by decide

/-- The signed value of a signed maximum of two words is the maximum of their signed values. -/
theorem toInt_maxsi (a b : BitVec 32) : (IntOp.maxsi a b).toInt = max a.toInt b.toInt := by
  unfold IntOp.maxsi
  split <;> rename_i hc <;> rw [BitVec.slt_iff_toInt_lt] at hc <;> omega

/-- The signed value of a signed minimum of two words is the minimum of their signed values. -/
theorem toInt_minsi (a b : BitVec 32) : (IntOp.minsi a b).toInt = min a.toInt b.toInt := by
  unfold IntOp.minsi
  split <;> rename_i hc <;> rw [BitVec.slt_iff_toInt_lt] at hc <;> omega

/-- A word clamped to [0, 31999] (first raised to at least 0, then lowered to at most 31999) lies in [0, 31999] and,
    once clamped into the 32000 rows again, names the same row as the word itself. -/
theorem clip_word (x : BitVec 32) :
    0 ≤ (IntOp.minsi 31999#32 (IntOp.maxsi 0#32 x)).toInt
      ∧ (IntOp.minsi 31999#32 (IntOp.maxsi 0#32 x)).toInt ≤ 31999
      ∧ min (IntOp.minsi 31999#32 (IntOp.maxsi 0#32 x)).toInt.toNat 31999 = min x.toInt.toNat 31999 := by
  have hy : (IntOp.minsi 31999#32 (IntOp.maxsi 0#32 x)).toInt = min 31999 (max 0 x.toInt) := by
    rw [toInt_minsi, toInt_maxsi, toInt_word_last, toInt_word_zero]
  rw [hy]
  omega

variable (m : (ℓ : Loc nD τ sig) → Buf (Elt Ideal) ℓ)

/-! ## The arrays the kernel is launched on, as functions of the arguments -/

/-- The transposed, clamped id array at (position p, batch row b) is the clamp of the raw id at (b, p). -/
theorem clipped_id (c : Dev nD) (p : Fin 64) (b : Fin 4096) :
    (V m c main_v1 : S64x4096.Idx → BitVec 32) (ix2 p b)
      = IntOp.minsi 31999#32 (IntOp.maxsi 0#32 ((m ((c : Thread nD τ).loc main_arg0) : S4096x64.Idx → BitVec 32) (ix2 b p))) := by
  dsimp only [Gen.V, Gen.hostOps0, Gen.hostOps0_1, Gen.hostOps0_2]
  simp only [List.flatten_cons, List.flatten_nil, List.append_nil, List.cons_append, List.nil_append]
  after_results
  refine (transpose_apply _ _ _ _ (ix2 b p) ?_).trans rfl
  intro a
  fin_cases a <;> rfl

/-- The id array the kernel reads, at (position p, batch row b): it names the same table row as the raw id at (b, p),
    and it lies in [0, 31999]. -/
theorem ids_window (c : Dev nD) (p : Fin 64) (b : Fin 4096) :
    Cert.OneHotMlp.tok ((V m c main_v1 : S64x4096.Idx → BitVec 32) (ix2 p b))
        = Cert.OneHotMlp.tok ((m ((c : Thread nD τ).loc main_arg0) : S4096x64.Idx → BitVec 32) (ix2 b p))
      ∧ 0 ≤ ((V m c main_v1 : S64x4096.Idx → BitVec 32) (ix2 p b)).toInt
      ∧ ((V m c main_v1 : S64x4096.Idx → BitVec 32) (ix2 p b)).toInt ≤ 31999 := by
  rw [clipped_id m c p b]
  obtain ⟨h0, h1, h2⟩ := clip_word ((m ((c : Thread nD τ).loc main_arg0) : S4096x64.Idx → BitVec 32) (ix2 b p))
  exact ⟨Fin.ext h2, h0, h1⟩

/-- The embedding tables the kernel reads are the argument tables: over the extended reals a change of float format
    changes nothing. -/
theorem table_window (c : Dev nD) :
    (V m c main_v2 : S64x32000x96.Idx → EReal) = m ((c : Thread nD τ).loc main_arg1) := by
  dsimp only [Gen.V, Gen.hostOps0, Gen.hostOps0_1, Gen.hostOps0_2]
  simp only [List.flatten_cons, List.flatten_nil, List.append_nil, List.cons_append, List.nil_append]
  after_results
  rfl

/-- The first bias as a one-row array: its entry at (0, h) is entry h of the argument vector. -/
theorem bias1_window (c : Dev nD) (i : S1x96.Idx) :
    (V m c main_v3 : S1x96.Idx → EReal) i = m ((c : Thread nD τ).loc main_arg2) (ix1 (i 1)) := by
  dsimp only [Gen.V, Gen.hostOps0, Gen.hostOps0_1, Gen.hostOps0_2]
  simp only [List.flatten_cons, List.flatten_nil, List.append_nil, List.cons_append, List.nil_append]
  after_results
  refine (shapeCast_apply _ _ _ (ix1 (i 1)) ?_).trans rfl
  -- both row-major positions are the column: the one row contributes 0
  have h0 : (i 0).val < 1 := idx2_lt0 i
  have hr : (S1x96.rowMajor i).val = (i 0).val * 96 + (i 1).val := Shape.rowMajor_val_two i
  rw [Shape.rowMajor_val_one]
  show (i 1).val = (S1x96.rowMajor i).val
  omega

/-- The second bias as a one-row array: its entry at (0, j) is entry j of the argument vector. -/
theorem bias2_window (c : Dev nD) (i : S1x2.Idx) :
    (V m c main_v4 : S1x2.Idx → EReal) i = m ((c : Thread nD τ).loc main_arg4) (ix1 (i 1)) := by
  dsimp only [Gen.V, Gen.hostOps0, Gen.hostOps0_1, Gen.hostOps0_2]
  simp only [List.flatten_cons, List.flatten_nil, List.append_nil, List.cons_append, List.nil_append]
  after_results
  refine (shapeCast_apply _ _ _ (ix1 (i 1)) ?_).trans rfl
  -- both row-major positions are the column: the one row contributes 0
  have h0 : (i 0).val < 1 := idx2_lt0 i
  have hr : (S1x2.rowMajor i).val = (i 0).val * 2 + (i 1).val := Shape.rowMajor_val_two i
  rw [Shape.rowMajor_val_one]
  show (i 1).val = (S1x2.rowMajor i).val
  omega

end Cert.KernelIdeal.HostPrefix

end
-- ==== Proof.TileSum.lean ====
/-
  Three facts about finite sums over the extended reals; no program appears here.

  The vocabulary of 32000 rows is cut into 25 tiles of 1280 rows. A token c in [0, 31999] lies in
  exactly one tile, number c / 1280, at lane c − 1280·(c / 1280) of it. Inside a tile, the sum of
  "indicator of the token's lane times f" is therefore f at that lane when the token lies in the tile
  and 0 otherwise; over the 25 tiles exactly one of those contributes. A batch tile is swept in 200
  steps s = 25·li + vi, li one of 8 groups of 8 positions and vi one of the 25 vocabulary tiles, so
  the steps with their eight positions each enumerate the 64 positions × 25 tiles exactly once.
  Only commutativity and associativity of the sum and 1·x = x, 0·x = 0 are used.
-/
import proofs.«403923_j12232066859090_3_alg».proof.Proof.Spec

namespace Cert.OneHotMlp

open Idealize.ShloMosaic

/-- A signed 32-bit word whose signed value lies in [0, 31999] has that same unsigned value. -/
theorem toNat_lt_of_toInt_in_vocab (c : BitVec 32) (hc0 : 0 ≤ c.toInt) (hc1 : c.toInt ≤ 31999) :
    c.toNat < 32000 := by
  rw [BitVec.toInt_eq_toNat_cond] at hc0 hc1
  split at hc0 <;> omega

/-- For a word c < 32000, a tile number v < 25 and a lane k < 1280, the wrapping difference
    c − 1280·v is the word k exactly when c = 1280·v + k as numbers: 1280·v < 2^32 does not wrap,
    and a difference that wrapped below zero would be far above 1280. -/
theorem sub_tile_base_eq_lane_iff (c : BitVec 32) (hc : c.toNat < 32000) (v : Fin 25) (k : Fin 1280) :
    c - Scalar.muli (BitVec.ofNat 32 v.val) 1280#32 = BitVec.ofNat 32 k.val
      ↔ c.toNat = v.val * 1280 + k.val := by
  have hv := v.isLt
  have hk := k.isLt
  rw [← BitVec.toNat_inj]
  simp only [Scalar.muli, IntOp.muli, BitVec.toNat_sub, BitVec.toNat_mul, BitVec.toNat_ofNat]
  omega

/-- Within vocabulary tile v, the one-hot row of a clamped token c picks lane c − 1280·v of the tile
    when c lies in it, and nothing otherwise. -/
theorem tile_pick (c : BitVec 32) (hc0 : 0 ≤ c.toInt) (hc1 : c.toInt ≤ 31999) (v : Fin 25)
    (f : Fin 1280 → EReal) :
    ∑ k : Fin 1280, (if c - Scalar.muli (BitVec.ofNat 32 v.val) 1280#32 = BitVec.ofNat 32 k.val
        then (1 : EReal) else 0) * f k
      = if h : c.toNat / 1280 = v.val then
          f ⟨c.toNat - v.val * 1280, by
            have := Nat.div_add_mod c.toNat 1280
            have := Nat.mod_lt c.toNat (show 0 < 1280 by norm_num)
            omega⟩
        else 0 := by
  have hv := v.isLt
  have hc := toNat_lt_of_toInt_in_vocab c hc0 hc1
  simp only [sub_tile_base_eq_lane_iff c hc v, ite_mul, one_mul, zero_mul]
  split_ifs with h
  · -- c lies in tile v: the only lane whose indicator is 1 is c − 1280·v
    rw [Finset.sum_eq_single (⟨c.toNat - v.val * 1280, by omega⟩ : Fin 1280)]
    · rw [if_pos]
      show c.toNat = v.val * 1280 + (c.toNat - v.val * 1280)
      omega
    · intro k _ hk
      rw [if_neg]
      intro h'
      apply hk
      apply Fin.ext
      show k.val = c.toNat - v.val * 1280
      omega
    · intro h'
      exact absurd (Finset.mem_univ _) h'
  · -- c lies in another tile: every indicator is 0
    apply Finset.sum_eq_zero
    intro k _
    have hk := k.isLt
    rw [if_neg]
    intro h'
    apply h
    omega

/-- Over the 25 tiles exactly one holds the token. -/
theorem tiles_sum (c : Fin 32000) (x : EReal) :
    ∑ v : Fin 25, (if c.val / 1280 = v.val then x else 0) = x := by
  have hc := c.isLt
  have e : ∀ v : Fin 25, (c.val / 1280 = v.val) ↔ ((⟨c.val / 1280, by omega⟩ : Fin 25) = v) :=
    fun v => by rw [Fin.ext_iff]
  simp only [e, Finset.sum_ite_eq, Finset.mem_univ, if_true]

/-- A function of a position and a tile takes equal values at equal numbers, whatever the proofs
    of the bounds. -/
private theorem apply_mk_congr (g : Fin 64 → Fin 25 → EReal) {a a' b b' : ℕ} (ha : a < 64)
    (ha' : a' < 64) (hb : b < 25) (hb' : b' < 25) (e1 : a = a') (e2 : b = b') :
    g ⟨a, ha⟩ ⟨b, hb⟩ = g ⟨a', ha'⟩ ⟨b', hb'⟩ := by
  subst e1 e2; rfl

/-- The 200 steps of a batch tile, eight positions each, enumerate the 64 positions × 25 vocabulary
    tiles once. (q is the batch tile's number; 200·q + s is the step's number in the whole grid, and
    only its residues matter.) -/
theorem steps_sum (q : ℕ) (g : Fin 64 → Fin 25 → EReal) :
    ∑ s ∈ Finset.range 200, ∑ l : Fin 8,
        g ⟨(200 * q + s) % 200 / 25 * 8 + l.val, by
            have := l.isLt
            have := Nat.mod_lt (200 * q + s) (show 0 < 200 by norm_num)
            omega⟩
          ⟨(200 * q + s) % 25, Nat.mod_lt _ (by norm_num)⟩
      = ∑ p : Fin 64, ∑ v : Fin 25, g p v := by
  -- the right side, with p = 8·li + l and the tile sum moved outside the sum over l
  have hR : ∑ p : Fin 64, ∑ v : Fin 25, g p v
      = ∑ li : Fin 8, ∑ vi : Fin 25, ∑ l : Fin 8, g ⟨li.val * 8 + l.val, by omega⟩ vi := by
    rw [← Equiv.sum_comp (finProdFinEquiv : Fin 8 × Fin 8 ≃ Fin 64), Fintype.sum_prod_type]
    refine Finset.sum_congr rfl fun li _ => ?_
    rw [Finset.sum_comm]
    refine Finset.sum_congr rfl fun vi _ => Finset.sum_congr rfl fun l _ => ?_
    refine apply_mk_congr g _ _ _ _ ?_ rfl
    show l.val + 8 * li.val = li.val * 8 + l.val
    omega
  -- the left side, with s = 25·li + vi: then s / 25 = li and s % 25 = vi, and 200·q drops out
  rw [hR, Finset.sum_range, ← Equiv.sum_comp (finProdFinEquiv : Fin 8 × Fin 25 ≃ Fin 200),
    Fintype.sum_prod_type]
  refine Finset.sum_congr rfl fun li _ => Finset.sum_congr rfl fun vi _ =>
    Finset.sum_congr rfl fun l _ => ?_
  have hli := li.isLt
  have hvi := vi.isLt
  refine apply_mk_congr g _ _ _ _ ?_ ?_
  · show (200 * q + (vi.val + 25 * li.val)) % 200 / 25 * 8 + l.val = li.val * 8 + l.val
    omega
  · show (200 * q + (vi.val + 25 * li.val)) % 25 = vi.val
    omega

end Cert.OneHotMlp
-- ==== Proof.Fold.lean ====
/-
  The accumulator over the grid, and what it holds when a batch tile's last point is done.

  The grid's 400 points run batch tile by batch tile (200 points each), inside a batch tile position
  tile by position tile (25 points each), inside that vocabulary tile by vocabulary tile. A point's
  table block is the position tile's 8 tables restricted to the vocabulary tile's 1280 rows; its id
  block is the position tile's 8 rows of the (clamped, transposed) ids restricted to the batch tile.
  One position's one-hot sum over a vocabulary tile is the token's table entry when the token lies in
  that tile and zero otherwise; the 200 points of a batch tile meet each of the 64 positions with each
  of the 25 vocabulary tiles once; so after the last point the accumulator's entry (r, h) is the sum
  over the 64 positions of the table entries their tokens name: the hidden pre-activation.
-/
import proofs.«403923_j12232066859090_3_alg».proof.Proof.Gen.KernelIdeal.Value
import proofs.«403923_j12232066859090_3_alg».proof.Proof.StepIdeal
import Idealize.ShloMosaic.Lib.Pipeline.Value
import Idealize.ShloMosaic.Lib.ValueIdx
import proofs.«403923_j12232066859090_3_alg».proof.Proof.HostPrefix
import proofs.«403923_j12232066859090_3_alg».proof.Proof.TileSum

set_option maxRecDepth 16384

noncomputable section

namespace Cert.KernelIdeal.Fold

open Cert.KernelIdeal Cert.KernelIdeal.Gen Cert.KernelIdeal.Step Cert.KernelIdeal.Pieces Cert.KernelIdeal.StepIdeal
open Idealize.ShloMosaic Idealize.ShloMosaic.TcCoe Idealize.ShloMosaic.ValueIdx Idealize.SL.Sem
open Idealize.ShloMosaic.Pipeline (Dat)
open Cert.OneHotMlp Cert.KernelIdeal.HostPrefix

variable (m : (ℓ : Loc nD τ sig) → Buf (Elt Ideal) ℓ)

/-! ## The grid: point n is batch tile n / 200, position tile n % 200 / 25, vocabulary tile n % 25 -/

theorem coords_eq : ∀ t : Fin cfg0.N, ((grid0.coords t) 0).val = t.val / 200 ∧ ((grid0.coords t) 1).val = t.val % 200 / 25
    ∧ ((grid0.coords t) 2).val = t.val % 25 :=
  (by decide +kernel : ∀ t : Fin grid0.N, ((grid0.coords t) 0).val = t.val / 200 ∧ ((grid0.coords t) 1).val = t.val % 200 / 25
    ∧ ((grid0.coords t) 2).val = t.val % 25)

theorem table_index : ∀ t : Fin cfg0.N, win0_0.index t 0 = t.val % 200 / 25 ∧ win0_0.index t 1 = t.val % 25 ∧ win0_0.index t 2 = 0 :=
  (by decide +kernel : ∀ t : Fin grid0.N, win0_0.index t 0 = t.val % 200 / 25 ∧ win0_0.index t 1 = t.val % 25 ∧ win0_0.index t 2 = 0)

theorem ids_index : ∀ t : Fin cfg0.N, win0_1.index t 0 = t.val % 200 / 25 ∧ win0_1.index t 1 = t.val / 200 :=
  (by decide +kernel : ∀ t : Fin grid0.N, win0_1.index t 0 = t.val % 200 / 25 ∧ win0_1.index t 1 = t.val / 200)

theorem out_index : ∀ t : Fin cfg0.N, win0_5.index t 0 = t.val / 200 ∧ win0_5.index t 1 = 0 :=
  (by decide +kernel : ∀ t : Fin grid0.N, win0_5.index t 0 = t.val / 200 ∧ win0_5.index t 1 = 0)

/-! ## The blocks and arrays, at their literal types -/

abbrev tableArr (c : Dev nD) : Vec Ideal S64x32000x96 .bf16 := V m c main_v2
abbrev idsArr (c : Dev nD) : Vec Ideal S64x4096 .i32 := V m c main_v1
abbrev tableBlk (c : Dev nD) (t : Fin cfg0.N) : Vec Ideal S8x1280x96 .bf16 := iblk m c 0 t
abbrev idsBlk (c : Dev nD) (t : Fin cfg0.N) : Vec Ideal S8x2048 .i32 := iblk m c 1 t

theorem pt_lt (t : Fin cfg0.N) : t.val < 400 := lt_of_lt_of_eq t.isLt (show cfg0.N = 400 from N_0)

/-- The table block at a point holds the position tile's 8 tables, restricted to the vocabulary tile's 1280 rows. -/
theorem tableBlk_apply (c : Dev nD) (t : Fin cfg0.N) (l : Fin 8) (k : Fin 1280) (h : Fin 96) :
    tableBlk m c t (ix3 l k h) = tableArr m c (ix3 ⟨t.val % 200 / 25 * 8 + l.val, by have := l.isLt; omega⟩
      ⟨t.val % 25 * 1280 + k.val, by have := k.isLt; omega⟩ h) := by
  show iblk m c 0 t (ix3 l k h) = _
  unfold iblk
  rw [View.read_apply]
  show V m c main_v2 _ = V m c main_v2 _
  congr 1; funext a; apply Fin.ext
  match a with
  | ⟨0, _⟩ => show win0_0.index t 0 * 8 + 1 * (l : ℕ) = _; rw [(table_index t).1]; show _ = t.val % 200 / 25 * 8 + l.val; omega
  | ⟨1, _⟩ => show win0_0.index t 1 * 1280 + 1 * (k : ℕ) = _; rw [(table_index t).2.1]; show _ = t.val % 25 * 1280 + k.val; omega
  | ⟨2, _⟩ => show win0_0.index t 2 * 96 + 1 * (h : ℕ) = _; rw [(table_index t).2.2]; show _ = h.val; omega

/-- The id block at a point holds the position tile's 8 rows of the transposed ids, restricted to the batch tile. -/
theorem idsBlk_apply (c : Dev nD) (t : Fin cfg0.N) (l : Fin 8) (r : Fin 2048) :
    idsBlk m c t (ix2 l r) = idsArr m c (ix2 ⟨t.val % 200 / 25 * 8 + l.val, by have := l.isLt; omega⟩
      ⟨t.val / 200 * 2048 + r.val, by have := r.isLt; have := pt_lt t; omega⟩) := by
  show iblk m c 1 t (ix2 l r) = _
  unfold iblk
  rw [View.read_apply]
  show V m c main_v1 _ = V m c main_v1 _
  congr 1; funext a; apply Fin.ext
  match a with
  | ⟨0, _⟩ => show win0_1.index t 0 * 8 + 1 * (l : ℕ) = _; rw [(ids_index t).1]; show _ = t.val % 200 / 25 * 8 + l.val; omega
  | ⟨1, _⟩ => show win0_1.index t 1 * 2048 + 1 * (r : ℕ) = _; rw [(ids_index t).2]; show _ = t.val / 200 * 2048 + r.val; omega

/-- The same two reads, at a position and a row or batch row NAMED by their numbers. -/
theorem tableBlk_at (c : Dev nD) (t : Fin cfg0.N) (l : Fin 8) (k : Fin 1280) (h : Fin 96) (p : Fin 64) (x : Fin 32000)
    (hp : p.val = t.val % 200 / 25 * 8 + l.val) (hx : x.val = t.val % 25 * 1280 + k.val) :
    tableBlk m c t (ix3 l k h) = tableArr m c (ix3 p x h) := by
  obtain ⟨pv, hpv⟩ := p
  obtain ⟨xv, hxv⟩ := x
  dsimp only at hp hx
  subst hp; subst hx
  exact tableBlk_apply m c t l k h

theorem idsBlk_at (c : Dev nD) (t : Fin cfg0.N) (l : Fin 8) (r : Fin 2048) (p : Fin 64) (b : Fin 4096)
    (hp : p.val = t.val % 200 / 25 * 8 + l.val) (hb : b.val = t.val / 200 * 2048 + r.val) :
    idsBlk m c t (ix2 l r) = idsArr m c (ix2 p b) := by
  obtain ⟨pv, hpv⟩ := p
  obtain ⟨bv, hbv⟩ := b
  dsimp only at hp hb
  subst hp; subst hb
  exact idsBlk_apply m c t l r

/-! ## What a point adds, and the accumulator after a point -/

/-- What grid point `n` adds to the accumulator's entry `i`: its eight positions' sums (zero past the grid). -/
def addend (c : Dev nD) (n : ℕ) (i : S2048x96.Idx) : EReal :=
  if hn : n < cfg0.N then
    ∑ l : Fin 8, posAdd (baseOf (grid0.coords ⟨n, hn⟩)) (tableBlk m c ⟨n, hn⟩) (idsBlk m c ⟨n, hn⟩) l (i 0) (i 1)
  else 0

/-- At the first point of a batch tile the accumulator ends at the zero block plus the point's addend. -/
theorem step_first (c : Dev nD) (n : ℕ) (hn : n < cfg0.N) (h0 : n % 200 = 0) (acc : Vec Ideal S2048x96 .f32)
    (i : S2048x96.Idx) :
    Value.scAt0_0 m c n hn acc i = (zeroAcc (F := Ideal)) i + addend m c n i := by
  have h1 : ¬ n % 200 = 199 := by omega
  obtain ⟨r, h, rfl⟩ : ∃ (r : Fin 2048) (h : Fin 96), i = ix2 r h := ⟨i 0, i 1, eq_ix2 i⟩
  unfold Value.scAt0_0
  rw [dif_pos h0, dif_neg h1]
  refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _)
    ((hcond0_0 ⟨n, hn⟩).mpr h0) (fun h => h1 ((hcond0_1 ⟨n, hn⟩).mp h)) (tableBlk m c ⟨n, hn⟩) (idsBlk m c ⟨n, hn⟩) (iblk m c 2 ⟨n, hn⟩) (iblk m c 3 ⟨n, hn⟩) (iblk m c 4 ⟨n, hn⟩)) (ix2 r h)).trans ?_
  rw [pointAcc_apply]
  unfold addend; rw [dif_pos hn]

/-- At every other point it ends at what the point before left plus the point's addend. -/
theorem step_next (c : Dev nD) (n : ℕ) (hn : n < cfg0.N) (h0 : ¬ n % 200 = 0) (acc : Vec Ideal S2048x96 .f32)
    (i : S2048x96.Idx) :
    Value.scAt0_0 m c n hn acc i = acc i + addend m c n i := by
  obtain ⟨r, h, rfl⟩ : ∃ (r : Fin 2048) (h : Fin 96), i = ix2 r h := ⟨i 0, i 1, eq_ix2 i⟩
  unfold Value.scAt0_0
  rw [dif_neg h0]
  by_cases h1 : n % 200 = 199
  · rw [dif_pos h1]
    refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _)
      (fun h => h0 ((hcond0_0 ⟨n, hn⟩).mp h)) ((hcond0_1 ⟨n, hn⟩).mpr h1) (tableBlk m c ⟨n, hn⟩) (idsBlk m c ⟨n, hn⟩) (iblk m c 2 ⟨n, hn⟩) (iblk m c 3 ⟨n, hn⟩) (iblk m c 4 ⟨n, hn⟩) acc) (ix2 r h)).trans ?_
    rw [pointAcc_apply]
    unfold addend; rw [dif_pos hn]
  · rw [dif_neg h1]
    refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _)
      (fun h => h0 ((hcond0_0 ⟨n, hn⟩).mp h)) (fun h => h1 ((hcond0_1 ⟨n, hn⟩).mp h)) (tableBlk m c ⟨n, hn⟩) (idsBlk m c ⟨n, hn⟩) (iblk m c 2 ⟨n, hn⟩) (iblk m c 3 ⟨n, hn⟩) (iblk m c 4 ⟨n, hn⟩) acc) (ix2 r h)).trans ?_
    rw [pointAcc_apply]
    unfold addend; rw [dif_pos hn]

/-- So after point `t` the accumulator holds the zero block plus the addends of the batch tile's points up to `t`. -/
theorem scratch_eq (c : Dev nD) (t : Fin cfg0.N) (i : S2048x96.Idx) :
    ((outsAt0 m c t.val t.isLt).2 : Vec Ideal S2048x96 .f32) i
      = (zeroAcc (F := Ideal)) i + ∑ s ∈ Finset.range (t.val % 200 + 1), addend m c (200 * (t.val / 200) + s) i := by
  rw [Value.soutsAt0_0_eq]
  have hN := pt_lt t
  exact Pipeline.accAt_add_apply (ι := S2048x96.Idx) (β := EReal) _ _ (zeroAcc (F := Ideal)) (addend m c)
    (200 * (t.val / 200)) 199
    (fun hb i => step_first m c _ hb (by omega) _ i)
    (fun n hn acc i hlo hhi => step_next m c n hn (by omega) acc i)
    (t.val % 200) (by omega) _ i

/-! ## A batch tile's 200 addends are the hidden pre-activation -/

/-- The zero block reads zero. -/
theorem zeroAcc_apply (i : S2048x96.Idx) : (zeroAcc (F := Ideal)) i = 0 := by
  show Ideal.ofBits .f32 0x00000000#32 = 0
  exact Ideal.ofBits_zero_f32

/-- The raw arguments: the ids and the embedding tables. -/
abbrev rawIds (c : Dev nD) : S4096x64.Idx → BitVec 32 := m ((c : Thread nD τ).loc main_arg0)
abbrev rawW1 (c : Dev nD) : S64x32000x96.Idx → EReal := m ((c : Thread nD τ).loc main_arg1)

/-- Position `p`'s share of batch row `b`'s hidden unit `h` that vocabulary tile `v` contributes: the table entry
    the position's token names when the token lies in the tile, else nothing. -/
def share (c : Dev nD) (b : Fin 4096) (h : Fin 96) (p : Fin 64) (v : Fin 25) : EReal :=
  if (tok (rawIds m c (ix2 b p))).val / 1280 = v.val then rawW1 m c (ix3 p (tok (rawIds m c (ix2 b p))) h) else 0

/-- One position's one-hot sum at a grid point is that share. -/
theorem posAdd_eq (c : Dev nD) (t : Fin cfg0.N) (l : Fin 8) (r : Fin 2048) (h : Fin 96) (p : Fin 64) (b : Fin 4096)
    (v : Fin 25) (hp : p.val = t.val % 200 / 25 * 8 + l.val) (hb : b.val = t.val / 200 * 2048 + r.val)
    (hv : v.val = t.val % 25) :
    posAdd (baseOf (grid0.coords t)) (tableBlk m c t) (idsBlk m c t) l r h = share m c b h p v := by
  have hbase : baseOf (grid0.coords t) = Scalar.muli (BitVec.ofNat 32 v.val) 1280#32 := by
    show Scalar.muli (BitVec.ofNat 32 ((grid0.coords t) 2).val) 1280#32 = _
    rw [(coords_eq t).2.2, hv]
  have hwin := ids_window m c p b
  have htok : tok (idsArr m c (ix2 p b)) = tok (rawIds m c (ix2 b p)) := hwin.1
  have hc0 : 0 ≤ (idsArr m c (ix2 p b)).toInt := hwin.2.1
  have hc1 : (idsArr m c (ix2 p b)).toInt ≤ 31999 := hwin.2.2
  clear hwin
  have hlt : (idsArr m c (ix2 p b)).toNat < 32000 := toNat_lt_of_toInt_in_vocab _ hc0 hc1
  have hval : (tok (rawIds m c (ix2 b p))).val = (idsArr m c (ix2 p b)).toNat := by
    rw [← htok, tok_val]
    have e : (idsArr m c (ix2 p b)).toInt = ((idsArr m c (ix2 p b)).toNat : ℤ) := by
      rw [BitVec.toInt_eq_toNat_cond]; split <;> omega
    omega
  have hv' := v.isLt
  unfold posAdd
  rw [idsBlk_at m c t l r p b hp hb, hbase]
  have hsum : ∀ k : Fin 1280, tableBlk m c t (ix3 l k h)
      = tableArr m c (ix3 p ⟨v.val * 1280 + k.val, by have := k.isLt; omega⟩ h) :=
    fun k => tableBlk_at m c t l k h p _ hp (by show v.val * 1280 + k.val = t.val % 25 * 1280 + k.val; omega)
  simp only [hsum]
  refine (tile_pick _ hc0 hc1 v (fun k => tableArr m c (ix3 p ⟨v.val * 1280 + k.val, by have := k.isLt; omega⟩ h))).trans ?_
  unfold share
  by_cases hh : (idsArr m c (ix2 p b)).toNat / 1280 = v.val
  · rw [dif_pos hh, if_pos (by rw [hval]; exact hh)]
    show tableArr m c _ = rawW1 m c _
    rw [show tableArr m c = rawW1 m c from table_window m c]
    congr 1; funext a; apply Fin.ext
    match a with
    | ⟨0, _⟩ => rfl
    | ⟨1, _⟩ =>
      show v.val * 1280 + ((idsArr m c (ix2 p b)).toNat - v.val * 1280) = (tok (rawIds m c (ix2 b p))).val
      rw [hval]
      have := Nat.div_add_mod (idsArr m c (ix2 p b)).toNat 1280
      omega
    | ⟨2, _⟩ => rfl
  · rw [dif_neg hh, if_neg (by rw [hval]; exact hh)]

/-- So a point's addend is its eight positions' shares at its vocabulary tile. -/
theorem addend_eq (c : Dev nD) (q : ℕ) (hq : q < 2) (s : ℕ) (hs : s < 200) (r : Fin 2048) (h : Fin 96) :
    addend m c (200 * q + s) (ix2 r h)
      = ∑ l : Fin 8, share m c ⟨q * 2048 + r.val, by have := r.isLt; omega⟩ h
          ⟨(200 * q + s) % 200 / 25 * 8 + l.val, by
            have := l.isLt
            have := Nat.mod_lt (200 * q + s) (show 0 < 200 by norm_num)
            omega⟩
          ⟨(200 * q + s) % 25, Nat.mod_lt _ (by norm_num)⟩ := by
  have hn : 200 * q + s < cfg0.N := by rw [show cfg0.N = 400 from N_0]; omega
  unfold addend
  rw [dif_pos hn]
  refine Finset.sum_congr rfl fun l _ => ?_
  exact posAdd_eq m c ⟨200 * q + s, hn⟩ l r h _ _ _ rfl (by show q * 2048 + r.val = (200 * q + s) / 200 * 2048 + r.val; omega) rfl

/-- After the last point of a batch tile the accumulator holds the hidden pre-activations of the tile's rows. -/
theorem acc_final (c : Dev nD) (t : Fin cfg0.N) (ht : t.val % 200 = 199) (r : Fin 2048) (h : Fin 96) :
    ((outsAt0 m c t.val t.isLt).2 : Vec Ideal S2048x96 .f32) (ix2 r h)
      = Cert.OneHotMlp.hidden (rawIds m c) (rawW1 m c) ⟨t.val / 200 * 2048 + r.val, by have := r.isLt; have := pt_lt t; omega⟩ h := by
  have hN := pt_lt t
  rw [scratch_eq, ht, zeroAcc_apply, zero_add]
  have e200 : 199 + 1 = 200 := rfl
  rw [e200, Finset.sum_congr rfl (fun s hs => addend_eq m c (t.val / 200) (by omega) s (Finset.mem_range.mp hs) r h)]
  refine (steps_sum (t.val / 200) (fun p v => share m c ⟨t.val / 200 * 2048 + r.val, by have := r.isLt; omega⟩ h p v)).trans ?_
  unfold Cert.OneHotMlp.hidden
  refine Finset.sum_congr rfl fun p _ => ?_
  unfold share
  exact tiles_sum _ _

end Cert.KernelIdeal.Fold

end
-- ==== Proof.FinalLayer.lean ====
/-
  The second layer of the kernel body at an output index.

  Given the accumulated hidden block `acc` (2048 rows by 96 units), the bias row `x2`, the second weight matrix
  `x3` (96 by 2) and the output bias row `x4`, the body forms `max (acc + x2) 0`, multiplies it with `x3` into a
  zero accumulator and adds `x4`. Over extended reals narrowing a factor changes nothing, so entry `(r, j)` is
      (Σ_h max (acc[r, h] + x2[0, h]) 0 · x3[h, j]) + x4[0, j].
  The product's contraction runs over one axis of extent 96; its index set is identified with `Fin 96`, and the
  four lemmas below say which entry of each factor a contraction position reads.
-/
import proofs.«403923_j12232066859090_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.FinalLayer

open Cert.KernelIdeal Cert.KernelIdeal.Gen Idealize.ShloMosaic Idealize.ShloMosaic.TcCoe Idealize.ShloMosaic.ValueIdx

/-- On the left operand's row axis the operand index is the output's row. -/
theorem lhsIdx_row (i : S2048x2.Idx) (q : dot_S2048x96_S96x2_S2048x2_1_0_0_1_n_n.contr.Idx) :
    (dot_S2048x96_S96x2_S2048x2_1_0_0_1_n_n.lhsIdx i q 0).val = (i 0).val := by
  unfold DotDims.lhsIdx
  rw [dif_neg (by decide : ¬(0 : Fin S2048x96.rank) ∈ dot_S2048x96_S96x2_S2048x2_1_0_0_1_n_n.lhsBatch),
    dif_pos (by decide : (0 : Fin S2048x96.rank) ∈ dot_S2048x96_S96x2_S2048x2_1_0_0_1_n_n.lhsNonContracting)]
  rfl

/-- On the left operand's contracted axis the operand index is the contraction position. -/
theorem lhsIdx_contracted (i : S2048x2.Idx) (q : dot_S2048x96_S96x2_S2048x2_1_0_0_1_n_n.contr.Idx) :
    (dot_S2048x96_S96x2_S2048x2_1_0_0_1_n_n.lhsIdx i q 1).val = (q ⟨0, by decide⟩).val :=
  dot_S2048x96_S96x2_S2048x2_1_0_0_1_n_n.lhsIdx_val_of_single rfl i q

/-- On the right operand's contracted axis the operand index is the contraction position. -/
theorem rhsIdx_contracted (i : S2048x2.Idx) (q : dot_S2048x96_S96x2_S2048x2_1_0_0_1_n_n.contr.Idx) :
    (dot_S2048x96_S96x2_S2048x2_1_0_0_1_n_n.rhsIdx i q 0).val = (q ⟨0, by decide⟩).val :=
  dot_S2048x96_S96x2_S2048x2_1_0_0_1_n_n.rhsIdx_val_of_single rfl i q

/-- On the right operand's column axis the operand index is the output's column. -/
theorem rhsIdx_col (i : S2048x2.Idx) (q : dot_S2048x96_S96x2_S2048x2_1_0_0_1_n_n.contr.Idx) :
    (dot_S2048x96_S96x2_S2048x2_1_0_0_1_n_n.rhsIdx i q 1).val = (i 1).val := by
  unfold DotDims.rhsIdx
  rw [dif_neg (by decide : ¬(1 : Fin S96x2.rank) ∈ dot_S2048x96_S96x2_S2048x2_1_0_0_1_n_n.rhsBatch),
    dif_pos (by decide : (1 : Fin S96x2.rank) ∈ dot_S2048x96_S96x2_S2048x2_1_0_0_1_n_n.rhsNonContracting)]
  rfl

/-- The kernel's second layer at row `r`, column `j`: the accumulated hidden row plus its bias, rectified, contracted
    with the second weight matrix over the 96 hidden units, plus the output bias. Narrowing both operands of the
    product is the identity on extended reals, and the product accumulates into zero. -/
theorem secondLayer_apply (acc : Vec Ideal S2048x96 .f32) (x2 : Vec Ideal S1x96 .f32) (x3 : Vec Ideal S96x2 .f32)
    (x4 : Vec Ideal S1x2 .f32) (r : Fin 2048) (j : Fin 2) :
    k0_pay15 (F := Ideal) acc x2 x3 x4 (ix2 r j)
      = (∑ h : Fin 96, max (acc (ix2 r h) + x2 (ix2 0 h)) 0 * x3 (ix2 h j)) + x4 (ix2 0 j) := by
  unfold k0_pay15
  simp only [matmul, shapeCast_self]
  have eb : broadcastTo S2048x2 x4 broadcasts_S1x2_S2048x2 (ix2 r j) = x4 (ix2 0 j) :=
    broadcastTo_apply x4 _ (ix2 r j) (ix2 0 j) (fun a => by match a with | ⟨0, _⟩ => rfl | ⟨1, _⟩ => rfl)
  rw [addf_apply, eb, Ideal.matmul_constant_zero_apply,
    ← Equiv.sum_comp (contrEquiv1 dot_S2048x96_S96x2_S2048x2_1_0_0_1_n_n 96 rfl rfl).symm]
  refine congrArg (· + x4 (ix2 0 j)) (Finset.sum_congr rfl fun h _ => ?_)
  have hk := contrEquiv1_symm_val dot_S2048x96_S96x2_S2048x2_1_0_0_1_n_n 96 rfl rfl h
  have el : dot_S2048x96_S96x2_S2048x2_1_0_0_1_n_n.lhsIdx (ix2 r j) ((contrEquiv1 dot_S2048x96_S96x2_S2048x2_1_0_0_1_n_n 96 rfl rfl).symm h) = ix2 r h :=
    funext fun a => Fin.ext (by
      match a with
      | ⟨0, _⟩ => exact lhsIdx_row _ _
      | ⟨1, _⟩ => exact (lhsIdx_contracted _ _).trans hk)
  have er : dot_S2048x96_S96x2_S2048x2_1_0_0_1_n_n.rhsIdx (ix2 r j) ((contrEquiv1 dot_S2048x96_S96x2_S2048x2_1_0_0_1_n_n 96 rfl rfl).symm h) = ix2 h j :=
    funext fun a => Fin.ext (by
      match a with
      | ⟨0, _⟩ => exact (rhsIdx_contracted _ _).trans hk
      | ⟨1, _⟩ => exact rhsIdx_col _ _)
  have e2 : broadcastTo S2048x96 x2 broadcasts_S1x96_S2048x96 (ix2 r h) = x2 (ix2 0 h) :=
    broadcastTo_apply x2 _ (ix2 r h) (ix2 0 h) (fun a => by match a with | ⟨0, _⟩ => rfl | ⟨1, _⟩ => rfl)
  rw [el, er, truncf_apply, truncf_apply, maximumf_apply, addf_apply, e2, broadcast_apply]
  show max (acc (ix2 r h) + x2 (ix2 0 h)) (Ideal.ofBits .f32 0x00000000#32) * x3 (ix2 h j) = _
  rw [Ideal.ofBits_zero_f32]

end Cert.KernelIdeal.FinalLayer

end
-- ==== Proof.OutArray.lean ====
/-
  From the output's blocks to the output array.

  The output is a [4096, 2] array, produced in two blocks of 2048 rows. The grid has 400 points; the first 200
  work on rows 0 … 2047 and the last 200 on rows 2048 … 4095, so at point t the output's block index is
  (t / 200, 0). A block is written back to the array only at the last point of its run, t ≡ 199 (mod 200).

  Suppose G is a [4096, 2] array such that, at each of those two points, the block the body leaves is rows
  (t / 200) · 2048 … (t / 200) · 2048 + 2047 of G. Then the array after the run is G. Two facts give this. First,
  what such a point writes back is its block of G: the block lies wholly inside the array, so all of it is written,
  and entry (r, j) of block (q, 0) is entry (q · 2048 + r, j) of the array. Second, the two blocks cover the array:
  the index (b, j) lies in block (b / 2048, 0), the one written back at t = 200 · (b / 2048) + 199.
-/
import proofs.«403923_j12232066859090_3_alg».proof.Proof.Gen.KernelIdeal.Value
import Idealize.ShloMosaic.Lib.Pipeline.Value
import Idealize.ShloMosaic.Lib.ValueIdx

set_option maxRecDepth 16384

noncomputable section

namespace Cert.KernelIdeal.OutArray

open Cert.KernelIdeal Cert.KernelIdeal.Gen Idealize.ShloMosaic Idealize.ShloMosaic.TcCoe Idealize.ShloMosaic.ValueIdx Idealize.SL.Sem
open Idealize.ShloMosaic.Pipeline (Dat)

/-! ## Where the output blocks sit -/

/-- Along the 400 grid points the output's block index is (t / 200, 0): one block of 2048 rows per run of 200 points. -/
theorem out_index : ∀ t : Fin cfg0.N, win0_5.index t (0 : Fin 2) = t.val / 200 ∧ win0_5.index t (1 : Fin 2) = 0 :=
  (by decide +kernel : ∀ t : Fin grid0.N, _)

/-- An index of the [4096, 2] array lies in point t's block iff, on each axis, it lies in the block's range there. -/
theorem mem_block (t : Fin cfg0.N) (i : S4096x2.Idx) :
    i ∈ ((cfg0.win 5).blk t).view.set
      ↔ ∀ a : Fin 2, win0_5.index t a * S2048x2.size a ≤ (i a).val ∧ (i a).val < win0_5.index t a * S2048x2.size a + S2048x2.size a := by
  show i ∈ ((View.whole main_v5).slice (win0_5.rect t)).set ↔ _
  rw [View.set_slice_whole, Rect.mem_set_unit]
  exact Iff.rfl

/-- Every index (b, j) of the array lies in the block written back at the last point of b's batch tile,
    t = 200 · (b / 2048) + 199. -/
theorem covered (i : S4096x2.Idx) :
    ∃ t : Fin cfg0.N, (cfg0.win 5).flush t = true ∧ i ∈ ((cfg0.win 5).blk t).view.set := by
  have hi0 : (i 0).val < 4096 := (i 0).isLt
  have hi1 : (i 1).val < 2 := (i 1).isLt
  have hN : cfg0.N = 400 := N_0
  have hlt : 200 * ((i 0).val / 2048) + 199 < cfg0.N := by omega
  obtain ⟨e0, e1⟩ := out_index ⟨200 * ((i 0).val / 2048) + 199, hlt⟩
  refine ⟨⟨200 * ((i 0).val / 2048) + 199, hlt⟩, (flush0_5 _).mpr (by show (200 * ((i 0).val / 2048) + 199) % 200 = 199; omega),
    (mem_block _ i).mpr ?_⟩
  intro a
  match a with
  | ⟨0, _⟩ =>
    show win0_5.index ⟨200 * ((i 0).val / 2048) + 199, hlt⟩ (0 : Fin 2) * 2048 ≤ (i 0).val
      ∧ (i 0).val < win0_5.index ⟨200 * ((i 0).val / 2048) + 199, hlt⟩ (0 : Fin 2) * 2048 + 2048
    rw [e0]
    show (200 * ((i 0).val / 2048) + 199) / 200 * 2048 ≤ (i 0).val ∧ (i 0).val < (200 * ((i 0).val / 2048) + 199) / 200 * 2048 + 2048
    omega
  | ⟨1, _⟩ =>
    show win0_5.index ⟨200 * ((i 0).val / 2048) + 199, hlt⟩ (1 : Fin 2) * 2 ≤ (i 1).val
      ∧ (i 1).val < win0_5.index ⟨200 * ((i 0).val / 2048) + 199, hlt⟩ (1 : Fin 2) * 2 + 2
    rw [e1]
    omega

variable (m : (ℓ : Loc nD τ sig) → Buf (Elt Ideal) ℓ)

/-! ## From the blocks to the array -/

/-- If at the last point of each batch tile the block the body leaves is the matching 2048 rows of G, then what that
    point writes back is its block of G: the block is written whole, and row r of block t / 200 is row
    (t / 200) · 2048 + r of the array. -/
theorem flushed_eq (c : Dev nD) (G : S4096x2.Idx → EReal)
    (hG : ∀ t : Fin cfg0.N, t.val % 200 = 199 → ∀ (r : Fin 2048) (j : Fin 2),
        ((outsAt0 m c t.val t.isLt).1 : Vec Ideal S2048x2 .f32) (ix2 r j) = G (ix2 ⟨t.val / 200 * 2048 + r.val, by have := r.isLt; have := lt_of_lt_of_eq t.isLt (show cfg0.N = 400 from N_0); omega⟩ j))
    (t : Fin cfg0.N) (hf : (cfg0.win 5).flush t = true) :
    (dats m 0 c).flushed 5 t = ((cfg0.win 5).blk t).view.read (Elt Ideal) G := by
  have ht : t.val % 200 = 199 := (flush0_5 t).mp hf
  obtain ⟨e0, e1⟩ := out_index t
  rw [Value.flushed5]
  funext y
  have hy0 : (y (0 : Fin 2)).val < 2048 := (y (0 : Fin 2)).isLt
  have hy1 : (y (1 : Fin 2)).val < 2 := (y (1 : Fin 2)).isLt
  refine Eq.trans ?_ ((hG t ht ⟨(y (0 : Fin 2)).val, hy0⟩ ⟨(y (1 : Fin 2)).val, hy1⟩).trans ?_)
  · -- the block is not cut: read at y it is the block's own entry at y's coordinates
    refine congrArg (outsAt0 m c t.val t.isLt).1 (funext fun a => ?_)
    match a with
    | ⟨0, _⟩ => rfl
    | ⟨1, _⟩ => rfl
  · -- y's place in the array: block index times block size, plus the coordinate inside the block
    show G _ = G (((cfg0.win 5).blk t).view.emb y)
    refine congrArg G (funext fun a => Fin.ext ?_)
    match a with
    | ⟨0, _⟩ =>
      show t.val / 200 * 2048 + (y (0 : Fin 2)).val = win0_5.index t (0 : Fin 2) * 2048 + 1 * (y (0 : Fin 2)).val
      rw [e0]; omega
    | ⟨1, _⟩ =>
      show (y (1 : Fin 2)).val = win0_5.index t (1 : Fin 2) * 2 + 1 * (y (1 : Fin 2)).val
      rw [e1]; omega

/-- The output array after the run is G, given that each batch tile's last point leaves the matching rows of G:
    those points' blocks are written back as blocks of G, and together they cover the array. -/
theorem final_of_blocks (c : Dev nD) (G : S4096x2.Idx → EReal)
    (hG : ∀ t : Fin cfg0.N, t.val % 200 = 199 → ∀ (r : Fin 2048) (j : Fin 2),
        ((outsAt0 m c t.val t.isLt).1 : Vec Ideal S2048x2 .f32) (ix2 r j) = G (ix2 ⟨t.val / 200 * 2048 + r.val, by have := r.isLt; have := lt_of_lt_of_eq t.isLt (show cfg0.N = 400 from N_0); omega⟩ j)) :
    (dats m 0 c).arrAt 5 cfg0.N = G :=
  (dats m 0 c).arrAt_eq_of_cover 5 G (fun t hf => flushed_eq m c G hG t hf) covered

end Cert.KernelIdeal.OutArray

end
-- ==== Proof.KernelValue.lean ====
/-
  The kernel's result array: the network of Spec.lean.

  At the last point of a batch tile the body stores the output block: the second layer applied to
  the accumulator, which by then holds the tile's hidden pre-activations. The bias and weight blocks
  of the second layer are whole arrays (their block index never moves), and as the region finds them
  they are the argument vectors, the biases viewed as one-row arrays. So the block written back for
  batch tile q is rows 2048·q … 2048·q + 2047 of the network's output, and the two write-backs fill
  the array.
-/
import proofs.«403923_j12232066859090_3_alg».proof.Proof.Fold
import proofs.«403923_j12232066859090_3_alg».proof.Proof.FinalLayer
import proofs.«403923_j12232066859090_3_alg».proof.Proof.OutArray

set_option maxRecDepth 16384

noncomputable section

namespace Cert.KernelIdeal.KernelValue

open Cert.KernelIdeal Cert.KernelIdeal.Gen Cert.KernelIdeal.Step Cert.KernelIdeal.Pieces Cert.KernelIdeal.StepIdeal
open Cert.KernelIdeal.Fold Cert.KernelIdeal.FinalLayer Cert.KernelIdeal.OutArray
open Idealize.ShloMosaic Idealize.ShloMosaic.TcCoe Idealize.ShloMosaic.ValueIdx Idealize.SL.Sem
open Idealize.ShloMosaic.Pipeline (Dat)
open Cert.OneHotMlp Cert.KernelIdeal.HostPrefix

variable (m : (ℓ : Loc nD τ sig) → Buf (Elt Ideal) ℓ) (ρ : Dev nD → PrngReg)

/-! ## The second layer's blocks are whole arrays -/

theorem small_index : ∀ t : Fin cfg0.N, win0_2.index t 0 = 0 ∧ win0_2.index t 1 = 0 ∧ win0_3.index t 0 = 0
    ∧ win0_3.index t 1 = 0 ∧ win0_4.index t 0 = 0 ∧ win0_4.index t 1 = 0 :=
  (by decide +kernel : ∀ t : Fin grid0.N, win0_2.index t 0 = 0 ∧ win0_2.index t 1 = 0 ∧ win0_3.index t 0 = 0
    ∧ win0_3.index t 1 = 0 ∧ win0_4.index t 0 = 0 ∧ win0_4.index t 1 = 0)

abbrev bias1Blk (c : Dev nD) (t : Fin cfg0.N) : Vec Ideal S1x96 .f32 := iblk m c 2 t
abbrev w2Blk (c : Dev nD) (t : Fin cfg0.N) : Vec Ideal S96x2 .f32 := iblk m c 3 t
abbrev bias2Blk (c : Dev nD) (t : Fin cfg0.N) : Vec Ideal S1x2 .f32 := iblk m c 4 t

theorem bias1Blk_apply (c : Dev nD) (t : Fin cfg0.N) (h : Fin 96) :
    bias1Blk m c t (ix2 0 h) = m ((c : Thread nD τ).loc main_arg2) (ix1 h) := by
  refine Eq.trans ?_ (bias1_window m c (ix2 0 h))
  show iblk m c 2 t (ix2 0 h) = _
  unfold iblk
  rw [View.read_apply]
  show V m c main_v3 _ = V m c main_v3 _
  congr 1; funext a; apply Fin.ext
  match a with
  | ⟨0, _⟩ => show win0_2.index t 0 * 1 + 1 * 0 = 0; rw [(small_index t).1]
  | ⟨1, _⟩ => show win0_2.index t 1 * 96 + 1 * (h : ℕ) = (h : ℕ); rw [(small_index t).2.1]; omega

theorem w2Blk_apply (c : Dev nD) (t : Fin cfg0.N) (h : Fin 96) (j : Fin 2) :
    w2Blk m c t (ix2 h j) = m ((c : Thread nD τ).loc main_arg3) (ix2 h j) := by
  refine Eq.trans ?_ (congrFun (V_main_arg3 m c) (ix2 h j))
  show iblk m c 3 t (ix2 h j) = _
  unfold iblk
  rw [View.read_apply]
  show V m c main_arg3 _ = V m c main_arg3 _
  congr 1; funext a; apply Fin.ext
  match a with
  | ⟨0, _⟩ => show win0_3.index t 0 * 96 + 1 * (h : ℕ) = (h : ℕ); rw [(small_index t).2.2.1]; omega
  | ⟨1, _⟩ => show win0_3.index t 1 * 2 + 1 * (j : ℕ) = (j : ℕ); rw [(small_index t).2.2.2.1]; omega

theorem bias2Blk_apply (c : Dev nD) (t : Fin cfg0.N) (j : Fin 2) :
    bias2Blk m c t (ix2 0 j) = m ((c : Thread nD τ).loc main_arg4) (ix1 j) := by
  refine Eq.trans ?_ (bias2_window m c (ix2 0 j))
  show iblk m c 4 t (ix2 0 j) = _
  unfold iblk
  rw [View.read_apply]
  show V m c main_v4 _ = V m c main_v4 _
  congr 1; funext a; apply Fin.ext
  match a with
  | ⟨0, _⟩ => show win0_4.index t 0 * 1 + 1 * 0 = 0; rw [(small_index t).2.2.2.2.1]
  | ⟨1, _⟩ => show win0_4.index t 1 * 2 + 1 * (j : ℕ) = (j : ℕ); rw [(small_index t).2.2.2.2.2]; omega

/-! ## The output block at a batch tile's last point -/

/-- It is the second layer of the accumulator the point ends at. -/
theorem out_block (c : Dev nD) (t : Fin cfg0.N) (h0 : ¬ t.val % 200 = 0) (h1 : t.val % 200 = 199) :
    ((outsAt0 m c t.val t.isLt).1 : Vec Ideal S2048x2 .f32)
      = k0_pay15 (F := Ideal) ((outsAt0 m c t.val t.isLt).2) (bias1Blk m c t) (w2Blk m c t) (bias2Blk m c t) := by
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h => h0 ((hcond0_0 t).mp h)) ((hcond0_1 t).mpr h1) (tableBlk m c t) (idsBlk m c t) (bias1Blk m c t) (w2Blk m c t)
      (bias2Blk m c t) _).trans
    (congrArg (fun a => k0_pay15 (F := Ideal) a (bias1Blk m c t) (w2Blk m c t) (bias2Blk m c t))
      (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        (fun h => h0 ((hcond0_0 t).mp h)) ((hcond0_1 t).mpr h1) (tableBlk m c t) (idsBlk m c t) (bias1Blk m c t) (w2Blk m c t)
        (bias2Blk m c t) _).symm)

/-- The network of the raw arguments. -/
abbrev result (c : Dev nD) : S4096x2.Idx → EReal :=
  net (rawIds m c) (rawW1 m c) (m ((c : Thread nD τ).loc main_arg2)) (m ((c : Thread nD τ).loc main_arg3))
    (m ((c : Thread nD τ).loc main_arg4))

/-- At (r, j) the block of batch tile t / 200 is the network's output at batch row 2048·(t / 200) + r. -/
theorem out_block_apply (c : Dev nD) (t : Fin cfg0.N) (ht : t.val % 200 = 199) (r : Fin 2048) (j : Fin 2) :
    ((outsAt0 m c t.val t.isLt).1 : Vec Ideal S2048x2 .f32) (ix2 r j)
      = result m c (ix2 ⟨t.val / 200 * 2048 + r.val, by have := r.isLt; have := pt_lt t; omega⟩ j) := by
  have h0 : ¬ t.val % 200 = 0 := by omega
  rw [out_block m c t h0 ht, secondLayer_apply]
  show _ = (∑ h : Fin 96, max (Cert.OneHotMlp.hidden (rawIds m c) (rawW1 m c) ⟨t.val / 200 * 2048 + r.val, _⟩ h
      + m ((c : Thread nD τ).loc main_arg2) (ix1 h)) 0 * m ((c : Thread nD τ).loc main_arg3) (ix2 h j))
      + m ((c : Thread nD τ).loc main_arg4) (ix1 j)
  rw [bias2Blk_apply]
  refine congrArg (fun z : EReal => z + m ((c : Thread nD τ).loc main_arg4) (ix1 j)) (Finset.sum_congr rfl fun h _ => ?_)
  rw [acc_final m c t ht, bias1Blk_apply, w2Blk_apply]

/-! ## The result array, and the run -/

/-- The two write-backs fill the result array with the network's output. -/
theorem final (c : Dev nD) : (dats m 0 c).arrAt 5 cfg0.N = result m c :=
  final_of_blocks m c (result m c) (fun t ht r j => out_block_apply m c t ht r j)

/-- Every weakly fair execution of the kernel program ends with the result array at the network of the
    arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference program's result, read index by index, is the network of Spec.lean.

  The reference looks a row up in table `p` by a start index with two components: the position `p` and the
  token id at `(b, p)`, each first passed through "add the axis length if negative". A position is never negative,
  and no id is negative by hypothesis, so both pass through unchanged. The lookup then clamps each component so
  that the one-row slice fits: `p` stays `p` (it is at most 63) and the id becomes `min id 31999`, which is the row
  `tok` names. Summing the looked-up entries over the 64 positions from the initial value `0` gives `hidden`; the
  bias, the maximum against `0`, the contraction with `W2` over the 96 hidden units and the last bias are then
  the terms of `net` one for one.
-/
import proofs.«403923_j12232066859090_3_alg».proof.Proof.Gen.ReferenceIdeal.Read
import proofs.«403923_j12232066859090_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.OneHotMlp
open Idealize.ShloMosaic Idealize.ShloMosaic.ValueIdx

/-! ## Signed 32-bit words that are not negative -/

/-- A word whose signed value is at least zero is not below the zero word in the signed order. -/
theorem cmpi_slt_zero_of_nonneg (x : BitVec 32) (h : 0 ≤ x.toInt) : IntOp.cmpi .slt x 0#32 = 0#1 := by
  have hf : x.slt 0#32 = false := by
    simp only [BitVec.slt, BitVec.toInt_zero, decide_eq_false_iff_not, not_lt]
    exact h
  show BitVec.ofBool (x.slt 0#32) = 0#1
  rw [hf]; rfl

/-- "If `x` is negative take `y`, else `x`" is `x` when `x` is not negative. -/
theorem select_slt_zero_of_nonneg (x y : BitVec 32) (h : 0 ≤ x.toInt) :
    Scalar.select (IntOp.cmpi .slt x 0#32) y x = x := by
  rw [cmpi_slt_zero_of_nonneg x h]; exact select_zero _ _

/-- The word of a number below 64 has that number as its signed value. -/
theorem toInt_ofNat_of_lt_64 (p : Fin 64) : (BitVec.ofNat 32 p.val).toInt = (p.val : Int) := by
  have := p.isLt
  rw [BitVec.toInt_eq_toNat_cond, BitVec.toNat_ofNat]
  omega

/-! ## The two components of a start index -/

/-- The table component at batch row `b`, position `p`, is the word of `p`: the negative branch is never taken. -/
theorem tableComponent_apply (b : Fin 4096) (p : Fin 64) :
    val_main_v13 (F := Ideal) (ix3 b p (0 : Fin 1)) = BitVec.ofNat 32 p.val := by
  rw [val_main_v13_apply, val_main_v12_apply, val_main_v6_apply, val_main_v3_apply, val_main_v2_apply,
    val_main_c_apply, val_main_v1_apply, val_main_v0_apply]
  exact select_slt_zero_of_nonneg (BitVec.ofNat 32 p.val) _
    (by rw [toInt_ofNat_of_lt_64]; exact Int.natCast_nonneg _)

/-- The row component at batch row `b`, position `p`, is the token id there, when no id is negative. -/
theorem rowComponent_apply (ids : IVec S4096x64 32) (hpos : ∀ i, 0 ≤ (ids i).toInt) (b : Fin 4096) (p : Fin 64) :
    val_main_v14 (F := Ideal) ids (ix3 b p (0 : Fin 1)) = ids (ix2 b p) := by
  rw [val_main_v14_apply, val_main_v11_apply, val_main_v8_apply, val_main_v7_apply, val_main_c_1_apply]
  have e : idx_main_v14 (ix3 b p (0 : Fin 1)) = ix2 b p :=
    funext fun a => Fin.ext (by match a with | ⟨0, _⟩ => rfl | ⟨1, _⟩ => rfl)
  rw [e]
  exact select_slt_zero_of_nonneg _ _ (hpos _)

/-- The joined start indices at last coordinate 0 are the table components. -/
theorem startIndices_apply_zero (ids : IVec S4096x64 32) (b : Fin 4096) (p : Fin 64) :
    val_main_v15 (F := Ideal) ids (ix3 b p (0 : Fin 2)) = val_main_v13 (F := Ideal) (ix3 b p (0 : Fin 1)) := by
  unfold val_main_v15
  exact concatenate_pair_apply_left (s₁ := S4096x64x1) (s₂ := S4096x64x1) (2 : Fin S4096x64x2.rank) _ _ _
    (ix3 b p (0 : Fin 2)) rfl (ix3 b p (0 : Fin 1))
    (fun a => by match a with | ⟨0, _⟩ => rfl | ⟨1, _⟩ => rfl | ⟨2, _⟩ => rfl)

/-- The joined start indices at last coordinate 1 are the row components. -/
theorem startIndices_apply_one (ids : IVec S4096x64 32) (b : Fin 4096) (p : Fin 64) :
    val_main_v15 (F := Ideal) ids (ix3 b p (1 : Fin 2)) = val_main_v14 (F := Ideal) ids (ix3 b p (0 : Fin 1)) := by
  unfold val_main_v15
  exact concatenate_pair_apply_right (s₁ := S4096x64x1) (s₂ := S4096x64x1) (2 : Fin S4096x64x2.rank) _ _ _
    (ix3 b p (1 : Fin 2)) rfl rfl (ix3 b p (0 : Fin 1))
    (fun a => by
      match a with
      | ⟨0, _⟩ => intro _; rfl
      | ⟨1, _⟩ => intro _; rfl
      | ⟨2, _⟩ => intro h; exact absurd rfl h)
    rfl

/-! ## The table lookup at an index -/

/-- The lookup's dimension numbers: the table axis and the row axis are indexed and collapsed, the last axis is
    taken whole. -/
abbrev tableDims : GatherDims S64x32000x96 S4096x64x2 S4096x64x96 :=
  gather_S64x32000x96_S4096x64x2_S4096x64x96_2_01_n_n_01_2_1196

/-- Result index `(b, p, h)` reads component `c` of its start index at `(b, p, c)`. -/
theorem siIdx_eq (b : Fin 4096) (p : Fin 64) (h : Fin 96) (c : Fin 2) (c' : Fin tableDims.startIndexMap.length)
    (hc : c'.val = c.val) : tableDims.siIdx (ix3 b p h) c' = ix3 b p c :=
  funext fun a => Fin.ext (by match a with | ⟨0, _⟩ => rfl | ⟨1, _⟩ => rfl | ⟨2, _⟩ => exact hc)

/-- The looked-up array at `(b, p, h)` is entry `h` of the row of table `p` that the token at `(b, p)` names.
    Axis by axis of the table: the first coordinate is `min p 63 = p`; the second is the id's signed value clamped
    into `[0, 31999]`, which is `tok`; the third is not indexed, starts at `0` and carries the coordinate `h`. -/
theorem gathered_apply (ids : IVec S4096x64 32) (W1 : FVec Ideal S64x32000x96 .f32)
    (hpos : ∀ i, 0 ≤ (ids i).toInt) (b : Fin 4096) (p : Fin 64) (h : Fin 96) :
    val_main_v16 (F := Ideal) ids W1 (ix3 b p h) = W1 (ix3 p (tok (ids (ix2 b p))) h) := by
  unfold val_main_v16 Host.gather
  refine congrArg W1 (funext fun a => Fin.ext ?_)
  match a with
  | ⟨0, _⟩ =>
    show tableDims.start (ix3 b p h) (val_main_v15 (F := Ideal) ids) 0 + tableDims.batchCoord (ix3 b p h) 0
      + tableDims.offCoord (ix3 b p h) 0 = p.val
    rw [GatherDims.batchCoord_eq_zero _ _ _ List.not_mem_nil,
      GatherDims.offCoord_eq_zero _ _ _ (fun hm => ((GatherDims.mem_sKept _ _).mp hm).1 (by decide))]
    unfold GatherDims.start
    rw [dif_pos (show (0 : Fin 3) ∈ tableDims.startIndexMap by decide)]
    have hsi := siIdx_eq b p h 0 ⟨List.idxOf (0 : Fin 3) tableDims.startIndexMap,
      List.idxOf_lt_length_iff.2 (by decide)⟩ rfl
    rw [hsi, startIndices_apply_zero, tableComponent_apply, toInt_ofNat_of_lt_64, Int.toNat_natCast]
    show min p.val (64 - 1) + 0 + 0 = p.val
    have := p.isLt
    omega
  | ⟨1, _⟩ =>
    show tableDims.start (ix3 b p h) (val_main_v15 (F := Ideal) ids) 1 + tableDims.batchCoord (ix3 b p h) 1
      + tableDims.offCoord (ix3 b p h) 1 = (tok (ids (ix2 b p))).val
    rw [GatherDims.batchCoord_eq_zero _ _ _ List.not_mem_nil,
      GatherDims.offCoord_eq_zero _ _ _ (fun hm => ((GatherDims.mem_sKept _ _).mp hm).1 (by decide))]
    unfold GatherDims.start
    rw [dif_pos (show (1 : Fin 3) ∈ tableDims.startIndexMap by decide)]
    have hsi := siIdx_eq b p h 1 ⟨List.idxOf (1 : Fin 3) tableDims.startIndexMap,
      List.idxOf_lt_length_iff.2 (by decide)⟩ rfl
    rw [hsi, startIndices_apply_one, rowComponent_apply ids hpos, tok_val]
    rfl
  | ⟨2, _⟩ =>
    show tableDims.start (ix3 b p h) (val_main_v15 (F := Ideal) ids) 2 + tableDims.batchCoord (ix3 b p h) 2
      + tableDims.offCoord (ix3 b p h) 2 = h.val
    rw [GatherDims.batchCoord_eq_zero _ _ _ List.not_mem_nil]
    unfold GatherDims.start GatherDims.offCoord
    rw [dif_neg (show ¬(2 : Fin 3) ∈ tableDims.startIndexMap by decide),
      dif_pos (show (2 : Fin 3) ∈ tableDims.sKept by decide)]
    show 0 + 0 + h.val = h.val
    omega

/-! ## The hidden layer and the output -/

/-- The rectified hidden layer at `(b, h)`: `0` plus the sum over the positions of the looked-up entries is
    `hidden`; then the bias, then the maximum against `0`. -/
theorem rectified_apply (ids : IVec S4096x64 32) (W1 : FVec Ideal S64x32000x96 .f32) (b1 : FVec Ideal S96 .f32)
    (hpos : ∀ i, 0 ≤ (ids i).toInt) (b : Fin 4096) (h : Fin 96) :
    val_main_v21 (F := Ideal) ids W1 b1 (ix2 b h) = max (hidden ids W1 b h + b1 (ix1 h)) 0 := by
  rw [val_main_v21_apply, val_main_v20_apply, val_main_v17_apply, val_main_v19_apply, val_main_v18_apply,
    val_main_call0_v0_apply, val_main_call0_cst_apply, val_main_cst_apply]
  have e17 : ∀ k : Fin 64, idx_main_v17 (ix2 b h) k = ix3 b k h := fun k =>
    funext fun a => Fin.ext (by match a with | ⟨0, _⟩ => rfl | ⟨1, _⟩ => rfl | ⟨2, _⟩ => rfl)
  have e18 : idx_main_v18 (idx_main_v19 (ix2 b h)) = ix1 h :=
    funext fun a => Fin.ext (by match a with | ⟨0, _⟩ => rfl)
  have es : ∑ k : Fin 64, val_main_v16 (F := Ideal) ids W1 (idx_main_v17 (ix2 b h) k) = hidden ids W1 b h :=
    Finset.sum_congr rfl fun k _ => by rw [e17 k, gathered_apply ids W1 hpos]
  rw [es, e18]
  show max (Ideal.ofBits .f32 0x00000000#32 + hidden ids W1 b h + b1 (ix1 h)) (Ideal.ofBits .f32 0x00000000#32) = _
  rw [Ideal.ofBits_zero_f32, zero_add]

/-- The reference's result is the network of the clamped token ids, when no id is negative. -/
theorem result_eq (ids : IVec S4096x64 32) (W1 : FVec Ideal S64x32000x96 .f32) (b1 : FVec Ideal S96 .f32)
    (W2 : FVec Ideal S96x2 .f32) (b2 : FVec Ideal S2 .f32) (hpos : ∀ i, 0 ≤ (ids i).toInt) :
    val_main_v25 (F := Ideal) ids W1 b1 W2 b2 = net ids W1 b1 W2 b2 := by
  funext j
  obtain ⟨b, o, rfl⟩ : ∃ (b : Fin 4096) (o : Fin 2), j = ix2 b o := ⟨j 0, j 1, eq_ix2 j⟩
  rw [val_main_v25_apply, val_main_v22_apply, val_main_v24_apply, val_main_v23_apply]
  have el : ∀ k : Fin 96, lidx_main_v22 (ix2 b o) k = ix2 b k := fun k =>
    funext fun a => Fin.ext (by match a with | ⟨0, _⟩ => rfl | ⟨1, _⟩ => rfl)
  have er : ∀ k : Fin 96, ridx_main_v22 (ix2 b o) k = ix2 k o := fun k =>
    funext fun a => Fin.ext (by match a with | ⟨0, _⟩ => rfl | ⟨1, _⟩ => rfl)
  have e23 : idx_main_v23 (idx_main_v24 (ix2 b o)) = ix1 o :=
    funext fun a => Fin.ext (by match a with | ⟨0, _⟩ => rfl)
  have es : ∑ k : Fin 96, val_main_v21 (F := Ideal) ids W1 b1 (lidx_main_v22 (ix2 b o) k) * W2 (ridx_main_v22 (ix2 b o) k)
      = ∑ h : Fin 96, max (hidden ids W1 b h + b1 (ix1 h)) 0 * W2 (ix2 h o) :=
    Finset.sum_congr rfl fun k _ => by rw [el k, er k, rectified_apply ids W1 b1 hpos]
  rw [es, e23]
  rfl

end Cert.ReferenceIdeal.RefValue

end
-- ==== Proof.PreFacts.lean ====
/-
  The input condition, read back at one token id.

  The condition is a conjunction of five statements, each of the form "every entry of an array satisfies a
  comparison", written as an and-reduction of the array of comparison bits down to a single bit. The first four say
  that the entries of the two tables and the two bias vectors are finite; the last says that every token id, read as
  a signed 32-bit integer, is at least 0. If the whole conjunction is the bit 1 then its last conjunct is 1; an
  and-reduction that is 1 met a 1 at every entry; and the bit of a signed comparison `x ≥ 0` is 1 exactly when
  `0 ≤ x` as integers. So every token id is non-negative.
-/
import proofs.«403923_j12232066859090_3_alg».proof.Pre_finite_inputs
import proofs.«403923_j12232066859090_3_alg».proof.Proof.Gen.Pre_finite_inputs
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx

/-- An array with no axes has exactly one index. -/
instance scalarIdx_subsingleton : Subsingleton Cert.Pre_finite_inputs.S_.Idx :=
  ⟨fun _ _ => funext fun d => d.elim0⟩

/-- The signed value of the zero word is 0. -/
theorem toInt_zero_word : (0#32 : BitVec 32).toInt = 0 := by decide

/-- A signed 32-bit word whose comparison bit `x ≥ 0` is set is non-negative as an integer. -/
theorem nonneg_of_sge_zero {x : BitVec 32} (hx : IntOp.cmpi .sge x 0#32 = 1#1) : 0 ≤ x.toInt := by
  have hz : (0#32 : BitVec 32).toInt ≤ x.toInt := IntOp.cmpi_sge.1 hx
  rw [toInt_zero_word] at hz
  exact hz

/-- Under the input condition every token id is non-negative. -/
theorem ids_nonneg {F : FTy → Type} [FloatOps F] [Cert.Pre_finite_inputs.Facts]
    (ids : IVec Cert.Pre_finite_inputs.S4096x64 32) (W1 : FVec F Cert.Pre_finite_inputs.S64x32000x96 .f32)
    (b1 : FVec F Cert.Pre_finite_inputs.S96 .f32) (W2 : FVec F Cert.Pre_finite_inputs.S96x2 .f32)
    (b2 : FVec F Cert.Pre_finite_inputs.S2 .f32)
    (h : Cert.Pre_finite_inputs.fn (F := F) ids W1 b1 W2 b2 = fun _ => 1#1) : ∀ i, 0 ≤ (ids i).toInt := by
  intro i
  -- the condition's one bit, as the nested conjunction of its five reductions
  have e := congrFun h ix0
  dsimp only [Cert.Pre_finite_inputs.fn, Cert.Pre_finite_inputs.fn_part1, andi] at e
  -- its last conjunct: the reduction over all token ids of the bits `id ≥ 0`
  obtain ⟨-, hall⟩ := IntOp.andi_eq_one.1 e
  -- that reduction is 1, so the bit at `i` is 1
  have hi := Host.reduce_andi_all _ _ _ _ ix0 hall i
  -- the bit at `i` compares `ids i` with the zero word, whatever index the constant is read at
  exact nonneg_of_sge_zero hi

end Cert.PreFacts
-- ==== Proof.lean ====
/-
  The certificate: the Pallas kernel computes its jnp reference over the extended reals, on ids that
  are not negative.

  Both programs are a two-layer network over one-hot encoded token ids. The first layer's product of
  a one-hot row with the embedding table is a table lookup: the reference looks the row up with a
  gather, the kernel multiplies one-hot blocks against table blocks on a grid and accumulates. With
  floats read as extended reals the kernel's accumulated sum re-associates into the reference's sum
  over the 64 positions (Proof/Fold.lean), and both apply the same second layer (Proof/KernelValue.lean
  for the kernel, Proof/RefValue.lean for the reference), so both end at the function `net` of
  Proof/Spec.lean.

  The ids are signed words and the precondition carries the conjunct "every id is at least 0". It is
  needed: the kernel clamps an id into [0, 31999] before use, while the reference's indexing first
  adds 32000 to a negative id and only then clamps, so a negative id names different table rows in
  the two programs. Past the upper end both clamp to the last row, and no bound is asked there.
  The finiteness conjuncts of the precondition are not used: the only laws used are that sums
  commute and re-associate, that 0 + x = x, 1 · x = x and 0 · x = 0, which hold of infinities too.

  The frames of the two kernel programs are the generated ones; the reference's is its generated run
  with the result dropped. The idealization rewrote nothing, so `preserves` is trivial.
-/
import proofs.«403923_j12232066859090_3_alg».proof.Defs
import proofs.«403923_j12232066859090_3_alg».proof.Proof.Gen.Kernel
import proofs.«403923_j12232066859090_3_alg».proof.Proof.Gen.Kernel.Skeleton
import proofs.«403923_j12232066859090_3_alg».proof.Proof.Gen.Kernel.Launch
import proofs.«403923_j12232066859090_3_alg».proof.Proof.Gen.Kernel.Points
import proofs.«403923_j12232066859090_3_alg».proof.Proof.Gen.Kernel.Frame
import proofs.«403923_j12232066859090_3_alg».proof.Proof.Gen.KernelIdeal
import proofs.«403923_j12232066859090_3_alg».proof.Proof.Gen.KernelIdeal.Skeleton
import proofs.«403923_j12232066859090_3_alg».proof.Proof.Gen.KernelIdeal.Launch
import proofs.«403923_j12232066859090_3_alg».proof.Proof.Gen.KernelIdeal.Points
import proofs.«403923_j12232066859090_3_alg».proof.Proof.Gen.KernelIdeal.Frame
import proofs.«403923_j12232066859090_3_alg».proof.Proof.Gen.ReferenceIdeal
import proofs.«403923_j12232066859090_3_alg».proof.Proof.Gen.Pre_finite_inputs
import proofs.«403923_j12232066859090_3_alg».proof.Proof.Gen.KernelIdeal.Value
import proofs.«403923_j12232066859090_3_alg».proof.Proof.Gen.ReferenceIdeal.Run
import proofs.«403923_j12232066859090_3_alg».proof.Proof.Gen.ReferenceIdeal.Read
import proofs.«403923_j12232066859090_3_alg».proof.Proof.KernelValue
import proofs.«403923_j12232066859090_3_alg».proof.Proof.RefValue
import proofs.«403923_j12232066859090_3_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the network of its arguments
    (Proof/KernelValue.lean) and the reference's at the network of its own (Proof/RefValue.lean, the ids being
    non-negative by the precondition): the same function of the same arrays. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v25_eq (F := Ideal) _ _ _ _ _).trans ?_
  exact Cert.ReferenceIdeal.RefValue.result_eq _ _ _ _ _ (Cert.PreFacts.ids_nonneg _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
